-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S_ : Shape := ⟨0, ![]⟩

class Facts : Prop where
  bcast_S_S8192x80 : S_.BroadcastsInDim S8192x80 (![] : Fin 0 → Fin S8192x80.rank)
  reducesTo_S8192x80_S_d0_1 : S8192x80.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x1 : S_.BroadcastsInDim S8192x1 (![] : Fin 0 → Fin S8192x1.rank)
  reducesTo_S8192x1_S_d0_1 : S8192x1.ReducesTo [0, 1] S_
  bcast_S_S512x113 : S_.BroadcastsInDim S512x113 (![] : Fin 0 → Fin S512x113.rank)
  reducesTo_S512x113_S_d0_1 : S512x113.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S1536x544 : S_.BroadcastsInDim S1536x544 (![] : Fin 0 → Fin S1536x544.rank)
  reducesTo_S1536x544_S_d0_1 : S1536x544.ReducesTo [0, 1] S_
  bcast_S_S512x544 : S_.BroadcastsInDim S512x544 (![] : Fin 0 → Fin S512x544.rank)
  reducesTo_S512x544_S_d0_1 : S512x544.ReducesTo [0, 1] S_
  bcast_S_S512x512 : S_.BroadcastsInDim S512x512 (![] : Fin 0 → Fin S512x512.rank)
  reducesTo_S512x512_S_d0_1 : S512x512.ReducesTo [0, 1] S_

variable [Facts]

def fn_part6 {F : FTy → Type} [FloatOps F] (main_arg21 : FVec F S512 .f32) (main_arg22 : FVec F S512x512 .f32) (main_arg23 : FVec F S512 .f32) (main_v98 : IVec S_ 1) (main_v101 : IVec S512x544 1) (main_c_39 : IVec S_ 1) : IVec S_ 1 :=
  let main_v102 : IVec S_ 1 := (fun x v => Host.reduce IntOp.andi x v reducesTo_S512x544_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  main_v118

def fn_part5 {F : FTy → Type} [FloatOps F] (main_arg18 : FVec F S512x544 .f32) (main_arg19 : FVec F S512 .f32) (main_arg20 : FVec F S512x544 .f32) (main_arg21 : FVec F S512 .f32) (main_arg22 : FVec F S512x512 .f32) (main_arg23 : FVec F S512 .f32) (main_v83 : IVec S_ 1) (main_v84 : FVec F S1536 .f32) (main_cst_32 : FVec F S_ .f32) : IVec S_ 1 :=
  let main_v85 : FVec F S1536 .f32 := broadcastInDim S1536 ![] bcast_S_S1536 main_cst_32
  let main_v86 : IVec S1536 1 := cmpf .olt main_v84 main_v85
  let main_c_33 : IVec S_ 1 := constantI S_ 1 1#1
  let main_v87 : IVec S_ 1 := (fun x v => Host.reduce IntOp.andi x v reducesTo_S1536_S_d0 h_S_) main_v86 main_c_33
  let main_v88 : IVec S_ 1 := andi main_v83 main_v87
  let main_v89 : FVec F S512x544 .f32 := Host.absf main_arg18
  let main_cst_34 : FVec F S_ .f32 := constant S_ .f32 0x7F800000#32
  let main_v90 : FVec F S512x544 .f32 := broadcastInDim S512x544 ![] bcast_S_S512x544 main_cst_34
  let main_v91 : IVec S512x544 1 := cmpf .olt main_v89 main_v90
  let main_c_35 : IVec S_ 1 := constantI S_ 1 1#1
  let main_v92 : IVec S_ 1 := (fun x v => Host.reduce IntOp.andi x v reducesTo_S512x544_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x544 .f32 := Host.absf main_arg20
  let main_cst_38 : FVec F S_ .f32 := constant S_ .f32 0x7F800000#32
  let main_v100 : FVec F S512x544 .f32 := broadcastInDim S512x544 ![] bcast_S_S512x544 main_cst_38
  let main_v101 : IVec S512x544 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v63 : IVec S_ 1) (main_v67 : IVec S_ 1) : IVec S_ 1 :=
  let main_v68 : IVec S_ 1 := andi main_v63 main_v67
  let main_v69 : FVec F S1536x544 .f32 := Host.absf main_arg14
  let main_cst_26 : FVec F S_ .f32 := constant S_ .f32 0x7F800000#32
  let main_v70 : FVec F S1536x544 .f32 := broadcastInDim S1536x544 ![] bcast_S_S1536x544 main_cst_26
  let main_v71 : IVec S1536x544 1 := cmpf .olt main_v69 main_v70
  let main_c_27 : IVec S_ 1 := constantI S_ 1 1#1
  let main_v72 : IVec S_ 1 := (fun x v => Host.reduce IntOp.andi x v reducesTo_S1536x544_S_d0_1 h_S_) main_v71 main_c_27
  let main_v73 : IVec S_ 1 := andi main_v68 main_v72
  let main_v74 : FVec F S1536x512 .f32 := Host.absf main_arg15
  let main_cst_28 : FVec F S_ .f32 := constant S_ .f32 0x7F800000#32
  let main_v75 : FVec F S1536x512 .f32 := broadcastInDim S1536x512 ![] bcast_S_S1536x512 main_cst_28
  let main_v76 : IVec S1536x512 1 := cmpf .olt main_v74 main_v75
  let main_c_29 : IVec S_ 1 := constantI S_ 1 1#1
  let main_v77 : IVec S_ 1 := (fun x v => Host.reduce IntOp.andi x v reducesTo_S1536x512_S_d0_1 h_S_) main_v76 main_c_29
  let main_v78 : IVec S_ 1 := andi main_v73 main_v77
  let main_v79 : FVec F S1536 .f32 := Host.absf main_arg16
  let main_cst_30 : FVec F S_ .f32 := constant S_ .f32 0x7F800000#32
  let main_v80 : FVec F S1536 .f32 := broadcastInDim S1536 ![] bcast_S_S1536 main_cst_30
  let main_v81 : IVec S1536 1 := cmpf .olt main_v79 main_v80
  let main_c_31 : IVec S_ 1 := constantI S_ 1 1#1
  let main_v82 : IVec S_ 1 := (fun x v => Host.reduce IntOp.andi x v reducesTo_S1536_S_d0 h_S_) main_v81 main_c_31
  let main_v83 : IVec S_ 1 := andi main_v78 main_v82
  let main_v84 : FVec F S1536 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v48 : IVec S_ 1) (main_v49 : FVec F S1536x512 .f32) (main_v50 : FVec F S1536x512 .f32) : IVec S_ 1 :=
  let main_v51 : IVec S1536x512 1 := cmpf .olt main_v49 main_v50
  let main_c_19 : IVec S_ 1 := constantI S_ 1 1#1
  let main_v52 : IVec S_ 1 := (fun x v => Host.reduce IntOp.andi x v reducesTo_S1536x512_S_d0_1 h_S_) main_v51 main_c_19
  let main_v53 : IVec S_ 1 := andi main_v48 main_v52
  let main_v54 : FVec F S1536x512 .f32 := Host.absf main_arg11
  let main_cst_20 : FVec F S_ .f32 := constant S_ .f32 0x7F800000#32
  let main_v55 : FVec F S1536x512 .f32 := broadcastInDim S1536x512 ![] bcast_S_S1536x512 main_cst_20
  let main_v56 : IVec S1536x512 1 := cmpf .olt main_v54 main_v55
  let main_c_21 : IVec S_ 1 := constantI S_ 1 1#1
  let main_v57 : IVec S_ 1 := (fun x v => Host.reduce IntOp.andi x v reducesTo_S1536x512_S_d0_1 h_S_) main_v56 main_c_21
  let main_v58 : IVec S_ 1 := andi main_v53 main_v57
  let main_v59 : FVec F S1536 .f32 := Host.absf main_arg12
  let main_cst_22 : FVec F S_ .f32 := constant S_ .f32 0x7F800000#32
  let main_v60 : FVec F S1536 .f32 := broadcastInDim S1536 ![] bcast_S_S1536 main_cst_22
  let main_v61 : IVec S1536 1 := cmpf .olt main_v59 main_v60
  let main_c_23 : IVec S_ 1 := constantI S_ 1 1#1
  let main_v62 : IVec S_ 1 := (fun x v => Host.reduce IntOp.andi x v reducesTo_S1536_S_d0 h_S_) main_v61 main_c_23
  let main_v63 : IVec S_ 1 := andi main_v58 main_v62
  let main_v64 : FVec F S1536 .f32 := Host.absf main_arg13
  let main_cst_24 : FVec F S_ .f32 := constant S_ .f32 0x7F800000#32
  let main_v65 : FVec F S1536 .f32 := broadcastInDim S1536 ![] bcast_S_S1536 main_cst_24
  let main_v66 : IVec S1536 1 := cmpf .olt main_v64 main_v65
  let main_c_25 : IVec S_ 1 := constantI S_ 1 1#1
  let main_v67 : IVec S_ 1 := (fun x v => Host.reduce IntOp.andi x v reducesTo_S1536_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v33 : IVec S_ 1) : IVec S_ 1 :=
  let main_v34 : FVec F S8192x1 .f32 := Host.absf main_arg7
  let main_cst_12 : FVec F S_ .f32 := constant S_ .f32 0x7F800000#32
  let main_v35 : FVec F S8192x1 .f32 := broadcastInDim S8192x1 ![] bcast_S_S8192x1 main_cst_12
  let main_v36 : IVec S8192x1 1 := cmpf .olt main_v34 main_v35
  let main_c_13 : IVec S_ 1 := constantI S_ 1 1#1
  let main_v37 : IVec S_ 1 := (fun x v => Host.reduce IntOp.andi x v reducesTo_S8192x1_S_d0_1 h_S_) main_v36 main_c_13
  let main_v38 : IVec S_ 1 := andi main_v33 main_v37
  let main_v39 : FVec F S512x113 .f32 := Host.absf main_arg8
  let main_cst_14 : FVec F S_ .f32 := constant S_ .f32 0x7F800000#32
  let main_v40 : FVec F S512x113 .f32 := broadcastInDim S512x113 ![] bcast_S_S512x113 main_cst_14
  let main_v41 : IVec S512x113 1 := cmpf .olt main_v39 main_v40
  let main_c_15 : IVec S_ 1 := constantI S_ 1 1#1
  let main_v42 : IVec S_ 1 := (fun x v => Host.reduce IntOp.andi x v reducesTo_S512x113_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1536x512 .f32 := Host.absf main_arg10
  let main_cst_18 : FVec F S_ .f32 := constant S_ .f32 0x7F800000#32
  let main_v50 : FVec F S1536x512 .f32 := broadcastInDim S1536x512 ![] bcast_S_S1536x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S8192x32 .f32) (main_arg5 : FVec F S8192x512 .f32) (main_arg6 : FVec F S8192x512 .f32) (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg4
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8192x80 .f32) (main_arg1 : FVec F S8192x32 .f32) (main_arg2 : FVec F S8192x32 .f32) (main_arg3 : FVec F S8192x32 .f32) (main_arg4 : FVec F S8192x32 .f32) (main_arg5 : FVec F S8192x512 .f32) (main_arg6 : FVec F S8192x512 .f32) (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) : IVec S_ 1 :=
  let main_v0 : FVec F S8192x80 .f32 := Host.absf main_arg0
  let main_cst : FVec F S_ .f32 := constant S_ .f32 0x7F800000#32
  let main_v1 : FVec F S8192x80 .f32 := broadcastInDim S8192x80 ![] bcast_S_S8192x80 main_cst
  let main_v2 : IVec S8192x80 1 := cmpf .olt main_v0 main_v1
  let main_c : IVec S_ 1 := constantI S_ 1 1#1
  let main_v3 : IVec S_ 1 := (fun x v => Host.reduce IntOp.andi x v reducesTo_S8192x80_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S113x512 : Shape := ⟨2, ![113, 512]⟩
abbrev S512x1536 : Shape := ⟨2, ![512, 1536]⟩
abbrev S544x1536 : Shape := ⟨2, ![544, 1536]⟩
abbrev S544x512 : Shape := ⟨2, ![544, 512]⟩
abbrev S256x80 : Shape := ⟨2, ![256, 80]⟩
abbrev S256x32 : Shape := ⟨2, ![256, 32]⟩
abbrev S256x512 : Shape := ⟨2, ![256, 512]⟩
abbrev S256x1 : Shape := ⟨2, ![256, 1]⟩
abbrev S256x113 : Shape := ⟨2, ![256, 113]⟩
abbrev S1x512 : Shape := ⟨2, ![1, 512]⟩
abbrev S256x1536 : Shape := ⟨2, ![256, 1536]⟩
abbrev S1x1536 : Shape := ⟨2, ![1, 1536]⟩
abbrev S256x544 : Shape := ⟨2, ![256, 544]⟩

abbrev nBuf : Space → Nat
  | .hbm => 43
  | .vmem => 38
  | .smem => 0
  | _ => 0

abbrev bufTy : (tb : Table) → Fin (tcTables nBuf tb) → BufTy
  | .hbm, ⟨0, _⟩ => ⟨S8192x80, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x32, .f32⟩
  | .hbm, ⟨5, _⟩ => ⟨S8192x512, .f32⟩
  | .hbm, ⟨6, _⟩ => ⟨S8192x512, .f32⟩
  | .hbm, ⟨7, _⟩ => ⟨S8192x1, .f32⟩
  | .hbm, ⟨8, _⟩ => ⟨S512x113, .f32⟩
  | .hbm, ⟨9, _⟩ => ⟨S512, .f32⟩
  | .hbm, ⟨10, _⟩ => ⟨S1536x512, .f32⟩
  | .hbm, ⟨11, _⟩ => ⟨S1536x512, .f32⟩
  | .hbm, ⟨12, _⟩ => ⟨S1536, .f32⟩
  | .hbm, ⟨13, _⟩ => ⟨S1536, .f32⟩
  | .hbm, ⟨14, _⟩ => ⟨S1536x544, .f32⟩
  | .hbm, ⟨15, _⟩ => ⟨S1536x512, .f32⟩
  | .hbm, ⟨16, _⟩ => ⟨S1536, .f32⟩
  | .hbm, ⟨17, _⟩ => ⟨S1536, .f32⟩
  | .hbm, ⟨18, _⟩ => ⟨S512x544, .f32⟩
  | .hbm, ⟨19, _⟩ => ⟨S512, .f32⟩
  | .hbm, ⟨20, _⟩ => ⟨S512x544, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S113x512, .f32⟩
  | .hbm, ⟨25, _⟩ => ⟨S113x512, .bf16⟩
  | .hbm, ⟨26, _⟩ => ⟨S512x1536, .f32⟩
  | .hbm, ⟨27, _⟩ => ⟨S512x1536, .bf16⟩
  | .hbm, ⟨28, _⟩ => ⟨S512x1536, .f32⟩
  | .hbm, ⟨29, _⟩ => ⟨S512x1536, .bf16⟩
  | .hbm, ⟨30, _⟩ => ⟨S544x1536, .f32⟩
  | .hbm, ⟨31, _⟩ => ⟨S544x1536, .bf16⟩
  | .hbm, ⟨32, _⟩ => ⟨S512x1536, .f32⟩
  | .hbm, ⟨33, _⟩ => ⟨S512x1536, .bf16⟩
  | .hbm, ⟨34, _⟩ => ⟨S544x512, .f32⟩
  | .hbm, ⟨35, _⟩ => ⟨S544x512, .bf16⟩
  | .hbm, ⟨36, _⟩ => ⟨S544x512, .f32⟩
  | .hbm, ⟨37, _⟩ => ⟨S544x512, .bf16⟩
  | .hbm, ⟨38, _⟩ => ⟨S512x512, .f32⟩
  | .hbm, ⟨39, _⟩ => ⟨S512x512, .bf16⟩
  | .hbm, ⟨40, _⟩ => ⟨S8192x512, .f32⟩
  | .hbm, ⟨41, _⟩ => ⟨S8192x512, .f32⟩
  | .hbm, ⟨42, _⟩ => ⟨S8192x512, .f32⟩
  | .local _ .vmem, ⟨0, _⟩ => ⟨S256x80, .f32⟩
  | .local _ .vmem, ⟨1, _⟩ => ⟨S256x80, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1, .f32⟩
  | .local _ .vmem, ⟨15, _⟩ => ⟨S256x1, .f32⟩
  | .local _ .vmem, ⟨16, _⟩ => ⟨S113x512, .bf16⟩
  | .local _ .vmem, ⟨17, _⟩ => ⟨S512, .f32⟩
  | .local _ .vmem, ⟨18, _⟩ => ⟨S512x1536, .bf16⟩
  | .local _ .vmem, ⟨19, _⟩ => ⟨S512x1536, .bf16⟩
  | .local _ .vmem, ⟨20, _⟩ => ⟨S1536, .f32⟩
  | .local _ .vmem, ⟨21, _⟩ => ⟨S1536, .f32⟩
  | .local _ .vmem, ⟨22, _⟩ => ⟨S544x1536, .bf16⟩
  | .local _ .vmem, ⟨23, _⟩ => ⟨S512x1536, .bf16⟩
  | .local _ .vmem, ⟨24, _⟩ => ⟨S1536, .f32⟩
  | .local _ .vmem, ⟨25, _⟩ => ⟨S1536, .f32⟩
  | .local _ .vmem, ⟨26, _⟩ => ⟨S544x512, .bf16⟩
  | .local _ .vmem, ⟨27, _⟩ => ⟨S512, .f32⟩
  | .local _ .vmem, ⟨28, _⟩ => ⟨S544x512, .bf16⟩
  | .local _ .vmem, ⟨29, _⟩ => ⟨S512, .f32⟩
  | .local _ .vmem, ⟨30, _⟩ => ⟨S512x512, .bf16⟩
  | .local _ .vmem, ⟨31, _⟩ => ⟨S512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | _, _ => ⟨S8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S113x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S544x1536 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S544x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S544x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  transposes_S512x113_S113x512_1_0 : S512x113.Transposes [1, 0] S113x512
  bitsLt_bf16_f32 : FTy.bits .bf16 < FTy.bits .f32
  transposes_S1536x512_S512x1536_1_0 : S1536x512.Transposes [1, 0] S512x1536
  transposes_S1536x544_S544x1536_1_0 : S1536x544.Transposes [1, 0] S544x1536
  transposes_S512x544_S544x512_1_0 : S512x544.Transposes [1, 0] S544x512
  transposes_S512x512_S512x512_1_0 : S512x512.Transposes [1, 0] S512x512
  inb_S256x1_S256x1_0_0 : ∀ a, (![0, 0] : Fin 2 → Nat) a + S256x1.size a ≤ S256x1.size a
  h_S256x1 : 0 < S256x1.numel
  inb_S256x80_S256x80_0_0 : ∀ a, (![0, 0] : Fin 2 → Nat) a + S256x80.size a ≤ S256x80.size a
  h_S256x80 : 0 < S256x80.numel
  inb_S256x32_S256x32_0_0 : ∀ a, (![0, 0] : Fin 2 → Nat) a + S256x32.size a ≤ S256x32.size a
  h_S256x32 : 0 < S256x32.numel
  concatenates_S256x1_S256x80_S256x32_S256x113_d1 : Shape.Concatenates [S256x1, S256x80, S256x32] S256x113 1
  inb_S113x512_S113x512_0_0 : ∀ a, (![0, 0] : Fin 2 → Nat) a + S113x512.size a ≤ S113x512.size a
  h_S113x512 : 0 < S113x512.numel
  shapeCasts_S113x512_S113x512 : S113x512.ShapeCasts S113x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  concatenates_S256x512_S256x32_S256x544_d1 : Shape.Concatenates [S256x512, S256x32] S256x544 1
  inb_S544x1536_S544x1536_0_0 : ∀ a, (![0, 0] : Fin 2 → Nat) a + S544x1536.size a ≤ S544x1536.size a
  h_S544x1536 : 0 < S544x1536.numel
  shapeCasts_S544x1536_S544x1536 : S544x1536.ShapeCasts S544x1536
  inb_S544x512_S544x512_0_0 : ∀ a, (![0, 0] : Fin 2 → Nat) a + S544x512.size a ≤ S544x512.size a
  h_S544x512 : 0 < S544x512.numel
  shapeCasts_S544x512_S544x512 : S544x512.ShapeCasts S544x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S256x113_S113x512_S256x512_1_0_0_1_n_n_wf : DotDims.WF S256x113 S113x512 S256x512 [1] [0] [0] [1] [] []
  dot_S256x512_S512x1536_S256x1536_1_0_0_1_n_n_wf : DotDims.WF S256x512 S512x1536 S256x1536 [1] [0] [0] [1] [] []
  dot_S256x544_S544x1536_S256x1536_1_0_0_1_n_n_wf : DotDims.WF S256x544 S544x1536 S256x1536 [1] [0] [0] [1] [] []
  dot_S256x544_S544x512_S256x512_1_0_0_1_n_n_wf : DotDims.WF S256x544 S544x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x80.size a ≤ S8192x80.size a
  hwx0_0 : ∀ i : grid0.Coords, EltTy.bits .f32 = 32 ∨ (Rect.block (s := S8192x80) S256x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S8192x32.size a
  hwx0_1 : ∀ i : grid0.Coords, EltTy.bits .f32 = 32 ∨ (Rect.block (s := S8192x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S8192x32.size a
  hwx0_2 : ∀ i : grid0.Coords, EltTy.bits .f32 = 32 ∨ (Rect.block (s := S8192x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S8192x32.size a
  hwx0_3 : ∀ i : grid0.Coords, EltTy.bits .f32 = 32 ∨ (Rect.block (s := S8192x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S8192x32.size a
  hwx0_4 : ∀ i : grid0.Coords, EltTy.bits .f32 = 32 ∨ (Rect.block (s := S8192x32) S256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S113x512.size a ≤ S113x512.size a
  hwx0_8 : ∀ i : grid0.Coords, EltTy.bits .bf16 = 32 ∨ (Rect.block (s := S113x512) S113x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1536.size a ≤ S512x1536.size a
  hwx0_10 : ∀ i : grid0.Coords, EltTy.bits .bf16 = 32 ∨ (Rect.block (s := S512x1536) S512x1536.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1536.size a ≤ S512x1536.size a
  hwx0_11 : ∀ i : grid0.Coords, EltTy.bits .bf16 = 32 ∨ (Rect.block (s := S512x1536) S512x1536.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1536.size a ≤ S1536.size a
  hwx0_12 : ∀ i : grid0.Coords, EltTy.bits .f32 = 32 ∨ (Rect.block (s := S1536) S1536.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1536.size a ≤ S1536.size a
  hwx0_13 : ∀ i : grid0.Coords, EltTy.bits .f32 = 32 ∨ (Rect.block (s := S1536) S1536.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S544x1536.size a ≤ S544x1536.size a
  hwx0_14 : ∀ i : grid0.Coords, EltTy.bits .bf16 = 32 ∨ (Rect.block (s := S544x1536) S544x1536.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x1536.size a ≤ S512x1536.size a
  hwx0_15 : ∀ i : grid0.Coords, EltTy.bits .bf16 = 32 ∨ (Rect.block (s := S512x1536) S512x1536.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1536.size a ≤ S1536.size a
  hwx0_16 : ∀ i : grid0.Coords, EltTy.bits .f32 = 32 ∨ (Rect.block (s := S1536) S1536.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1536.size a ≤ S1536.size a
  hwx0_17 : ∀ i : grid0.Coords, EltTy.bits .f32 = 32 ∨ (Rect.block (s := S1536) S1536.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S544x512.size a ≤ S544x512.size a
  hwx0_18 : ∀ i : grid0.Coords, EltTy.bits .bf16 = 32 ∨ (Rect.block (s := S544x512) S544x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S544x512.size a ≤ S544x512.size a
  hwx0_20 : ∀ i : grid0.Coords, EltTy.bits .bf16 = 32 ∨ (Rect.block (s := S544x512) S544x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .bf16 = 32 ∨ (Rect.block (s := S512x512) S512x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512.size a ≤ S512.size a
  hwx0_23 : ∀ i : grid0.Coords, EltTy.bits .f32 = 32 ∨ (Rect.block (s := S512) S512.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S256x512.size a ≤ S8192x512.size a
  hwx0_24 : ∀ i : grid0.Coords, EltTy.bits .f32 = 32 ∨ (Rect.block (s := S8192x512) S256x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S256x512.size a ≤ S8192x512.size a
  hwx0_25 : ∀ i : grid0.Coords, EltTy.bits .f32 = 32 ∨ (Rect.block (s := S8192x512) S256x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S256x512.size a ≤ S8192x512.size a
  hwx0_26 : ∀ i : grid0.Coords, EltTy.bits .f32 = 32 ∨ (Rect.block (s := S8192x512) S256x512.size (cc0_transform_26 i) (hinb0_26 i)).WholeWords (EltTy.packing .f32)

variable [Facts₀]

def dot_S256x113_S113x512_S256x512_1_0_0_1_n_n : DotDims S256x113 S113x512 S256x512 where
  lhsContracting := [1]
  rhsContracting := [0]
  lhsNonContracting := [0]
  rhsNonContracting := [1]
  lhsBatch := []
  rhsBatch := []
  wf := dot_S256x113_S113x512_S256x512_1_0_0_1_n_n_wf
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf
def dot_S256x544_S544x1536_S256x1536_1_0_0_1_n_n : DotDims S256x544 S544x1536 S256x1536 where
  lhsContracting := [1]
  rhsContracting := [0]
  lhsNonContracting := [0]
  rhsNonContracting := [1]
  lhsBatch := []
  rhsBatch := []
  wf := dot_S256x544_S544x1536_S256x1536_1_0_0_1_n_n_wf
def dot_S256x544_S544x512_S256x512_1_0_0_1_n_n : DotDims S256x544 S544x512 S256x512 where
  lhsContracting := [1]
  rhsContracting := [0]
  lhsNonContracting := [0]
  rhsNonContracting := [1]
  lhsBatch := []
  rhsBatch := []
  wf := dot_S256x544_S544x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S113x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S512x1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x1536.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1536.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S544x1536.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S512x1536.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1536.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1536.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S544x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v13) S544x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v15) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v16_0) S256x512.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v16_1) S256x512.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v16_2) S256x512.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S8192x113 : Shape := ⟨2, ![8192, 113]⟩
abbrev S113x512 : Shape := ⟨2, ![113, 512]⟩
abbrev S1x512 : Shape := ⟨2, ![1, 512]⟩
abbrev S512x1536 : Shape := ⟨2, ![512, 1536]⟩
abbrev S8192x1536 : Shape := ⟨2, ![8192, 1536]⟩
abbrev S1x1536 : Shape := ⟨2, ![1, 1536]⟩
abbrev S_ : Shape := ⟨0, ![]⟩
abbrev S8192x544 : Shape := ⟨2, ![8192, 544]⟩
abbrev S544x1536 : Shape := ⟨2, ![544, 1536]⟩
abbrev S544x512 : Shape := ⟨2, ![544, 512]⟩

abbrev nBuf : Space → Nat
  | .hbm => 142
  | .vmem => 0
  | .smem => 0
  | _ => 0

abbrev hbmTy0_0 (i : Nat) : BufTy := match i % 128 with
  | 0 => ⟨S8192x80, .f32⟩
  | 1 => ⟨S8192x32, .f32⟩
  | 2 => ⟨S8192x32, .f32⟩
  | 3 => ⟨S8192x32, .f32⟩
  | 4 => ⟨S8192x32, .f32⟩
  | 5 => ⟨S8192x512, .f32⟩
  | 6 => ⟨S8192x512, .f32⟩
  | 7 => ⟨S8192x1, .f32⟩
  | 8 => ⟨S512x113, .f32⟩
  | 9 => ⟨S512, .f32⟩
  | 10 => ⟨S1536x512, .f32⟩
  | 11 => ⟨S1536x512, .f32⟩
  | 12 => ⟨S1536, .f32⟩
  | 13 => ⟨S1536, .f32⟩
  | 14 => ⟨S1536x544, .f32⟩
  | 15 => ⟨S1536x512, .f32⟩
  | 16 => ⟨S1536, .f32⟩
  | 17 => ⟨S1536, .f32⟩
  | 18 => ⟨S512x544, .f32⟩
  | 19 => ⟨S512, .f32⟩
  | 20 => ⟨S512x544, .f32⟩
  | 21 => ⟨S512, .f32⟩
  | 22 => ⟨S512x512, .f32⟩
  | 23 => ⟨S512, .f32⟩
  | 24 => ⟨S8192x113, .f32⟩
  | 25 => ⟨S113x512, .f32⟩
  | 26 => ⟨S8192x512, .f32⟩
  | 27 => ⟨S1x512, .f32⟩
  | 28 => ⟨S8192x512, .f32⟩
  | 29 => ⟨S8192x512, .f32⟩
  | 30 => ⟨S512x1536, .f32⟩
  | 31 => ⟨S8192x1536, .f32⟩
  | 32 => ⟨S1x1536, .f32⟩
  | 33 => ⟨S8192x1536, .f32⟩
  | 34 => ⟨S8192x1536, .f32⟩
  | 35 => ⟨S512x1536, .f32⟩
  | 36 => ⟨S8192x1536, .f32⟩
  | 37 => ⟨S1x1536, .f32⟩
  | 38 => ⟨S8192x1536, .f32⟩
  | 39 => ⟨S8192x1536, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x544, .f32⟩
  | 75 => ⟨S544x1536, .f32⟩
  | 76 => ⟨S8192x1536, .f32⟩
  | 77 => ⟨S1x1536, .f32⟩
  | 78 => ⟨S8192x1536, .f32⟩
  | 79 => ⟨S8192x1536, .f32⟩
  | 80 => ⟨S512x1536, .f32⟩
  | 81 => ⟨S8192x1536, .f32⟩
  | 82 => ⟨S1x1536, .f32⟩
  | 83 => ⟨S8192x1536, .f32⟩
  | 84 => ⟨S8192x1536, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x544, .f32⟩
  | 120 => ⟨S544x512, .f32⟩
  | 121 => ⟨S8192x512, .f32⟩
  | 122 => ⟨S1x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x80, .f32⟩

abbrev hbmTy0_1 (i : Nat) : BufTy := match i % 128 with
  | 0 => ⟨S8192x544, .f32⟩
  | 1 => ⟨S544x512, .f32⟩
  | 2 => ⟨S8192x512, .f32⟩
  | 3 => ⟨S1x512, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S512x512, .f32⟩
  | 10 => ⟨S8192x512, .f32⟩
  | 11 => ⟨S1x512, .f32⟩
  | 12 => ⟨S8192x512, .f32⟩
  | 13 => ⟨S8192x512, .f32⟩
  | _ => ⟨S8192x80, .f32⟩

abbrev hbmTy (i : Nat) : BufTy := match i / 128 with
  | 0 => hbmTy0_0 i
  | 1 => hbmTy0_1 i
  | _ => ⟨S8192x80, .f32⟩

abbrev bufTy : (tb : Table) → Fin (tcTables nBuf tb) → BufTy
  | .hbm, ⟨i, _⟩ => hbmTy i
  | _, _ => ⟨S8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_6 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_8 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call0_cst : Ref sig .tc := ⟨.hbm, 125, rfl⟩
abbrev main_call0_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call1_cst : Ref sig .tc := ⟨.hbm, 134, rfl⟩
abbrev main_call1_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  concatenates_S8192x1_S8192x80_S8192x32_S8192x113_d1 : Shape.Concatenates [S8192x1, S8192x80, S8192x32] S8192x113 1
  transposes_S512x113_S113x512_1_0 : S512x113.Transposes [1, 0] S113x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S_S8192x512 : S_.BroadcastsInDim S8192x512 (![] : Fin 0 → Fin S8192x512.rank)
  concatenates_S8192x512_S8192x32_S8192x544_d1 : Shape.Concatenates [S8192x512, S8192x32] S8192x544 1
  transposes_S1536x544_S544x1536_1_0 : S1536x544.Transposes [1, 0] S544x1536
  transposes_S512x544_S544x512_1_0 : S512x544.Transposes [1, 0] S544x512
  transposes_S512x512_S512x512_1_0 : S512x512.Transposes [1, 0] S512x512
  dot_S8192x113_S113x512_S8192x512_1_0_0_1_n_n_wf : DotDims.WF S8192x113 S113x512 S8192x512 [1] [0] [0] [1] [] []
  dot_S8192x512_S512x1536_S8192x1536_1_0_0_1_n_n_wf : DotDims.WF S8192x512 S512x1536 S8192x1536 [1] [0] [0] [1] [] []
  dot_S8192x544_S544x1536_S8192x1536_1_0_0_1_n_n_wf : DotDims.WF S8192x544 S544x1536 S8192x1536 [1] [0] [0] [1] [] []
  dot_S8192x544_S544x512_S8192x512_1_0_0_1_n_n_wf : DotDims.WF S8192x544 S544x512 S8192x512 [1] [0] [0] [1] [] []
  dot_S8192x512_S512x512_S8192x512_1_0_0_1_n_n_wf : DotDims.WF S8192x512 S512x512 S8192x512 [1] [0] [0] [1] [] []

variable [Facts₀]

def dot_S8192x113_S113x512_S8192x512_1_0_0_1_n_n : DotDims S8192x113 S113x512 S8192x512 where
  lhsContracting := [1]
  rhsContracting := [0]
  lhsNonContracting := [0]
  rhsNonContracting := [1]
  lhsBatch := []
  rhsBatch := []
  wf := dot_S8192x113_S113x512_S8192x512_1_0_0_1_n_n_wf
def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x544_S544x1536_S8192x1536_1_0_0_1_n_n : DotDims S8192x544 S544x1536 S8192x1536 where
  lhsContracting := [1]
  rhsContracting := [0]
  lhsNonContracting := [0]
  rhsNonContracting := [1]
  lhsBatch := []
  rhsBatch := []
  wf := dot_S8192x544_S544x1536_S8192x1536_1_0_0_1_n_n_wf
def dot_S8192x544_S544x512_S8192x512_1_0_0_1_n_n : DotDims S8192x544 S544x512 S8192x512 where
  lhsContracting := [1]
  rhsContracting := [0]
  lhsNonContracting := [0]
  rhsNonContracting := [1]
  lhsBatch := []
  rhsBatch := []
  wf := dot_S8192x544_S544x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRows.lean ====
/-
  Rows of two-axis arrays of extended reals.

  Every operation of a row-by-row network — an entry-by-entry operation, a plain matrix product with a fixed right
  operand, a bias repeated down the rows, a stretch of columns, arrays joined along the columns — computes row `r` of
  its result from row `r` of its array operands alone.  `rowOf A r` is that row; one lemma per operation says how
  the result's row is made from the operands' rows, for a kernel's vector operations and for the host's alike.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«113867_j14224931684623_1_alg».proof.Proof.LibPlainDot

noncomputable section

open scoped BigOperators

namespace Rows

open Idealize.ShloMosaic Idealize.ShloMosaic.ValueIdx

/-- A row: a finite family of extended reals. -/
abbrev Row (n : ℕ) := Fin n → EReal

/-- Row `r` of a two-axis array: its entries `(r, k)`, `k` running over the second axis. -/
def rowOf {R n : ℕ} (A : (⟨2, ![R, n]⟩ : Shape).Idx → EReal) (r : Fin R) : Row n := fun k => A (ix2 r k)

/-- The array whose row `r` is `f r`. -/
def ofRows {R n : ℕ} (f : Fin R → Row n) : (⟨2, ![R, n]⟩ : Shape).Idx → EReal := fun j => f (j 0) (j 1)

theorem ofRows_apply {R n : ℕ} (f : Fin R → Row n) (r : Fin R) (k : Fin n) : ofRows f (ix2 r k) = f r k := rfl

/-- An array is determined by its rows. -/
theorem eq_ofRows {R n : ℕ} (A : (⟨2, ![R, n]⟩ : Shape).Idx → EReal) (f : Fin R → Row n)
    (h : ∀ r, rowOf A r = f r) : A = ofRows f := by
  funext j
  obtain ⟨r, k, rfl⟩ : ∃ (r : Fin R) (k : Fin n), j = ix2 r k := ⟨j 0, j 1, eq_ix2 j⟩
  exact congrFun (h r) k

namespace Row

variable {n : ℕ}

/-! ### Entry-by-entry operations on rows -/

def add (a b : Row n) : Row n := fun q => a q + b q
def sub (a b : Row n) : Row n := fun q => a q - b q
def mul (a b : Row n) : Row n := fun q => a q * b q
def maxr (a b : Row n) : Row n := fun q => max (a q) (b q)
def neg (a : Row n) : Row n := fun q => -(a q)
def quot (a b : Row n) : Row n := fun q => Ideal.div (a q) (b q)
def expo (a : Row n) : Row n := fun q => Ideal.exp (a q)
def logistic (a : Row n) : Row n := fun q => Ideal.logistic (a q)
def tanh (a : Row n) : Row n := fun q => Ideal.tanh (a q)
/-- The constant row. -/
def const (x : EReal) : Row n := fun _ => x

/-- `m` consecutive entries of a row from position `o`. -/
def slice (o : ℕ) {m : ℕ} (h : o + m ≤ n) (a : Row n) : Row m := fun j => a ⟨o + j.val, by have := j.isLt; omega⟩

/-- Two rows laid end to end. -/
def cat2 {a b c : ℕ} (h : a + b = c) (u : Row a) (v : Row b) : Row c := fun k =>
  if hk : k.val < a then u ⟨k.val, hk⟩ else v ⟨k.val - a, by have := k.isLt; omega⟩

/-- Three rows laid end to end. -/
def cat3 {a b c d : ℕ} (h : a + b + c = d) (u : Row a) (v : Row b) (w : Row c) : Row d := fun k =>
  if hk : k.val < a then u ⟨k.val, hk⟩
  else if hk2 : k.val < a + b then v ⟨k.val - a, by omega⟩
  else w ⟨k.val - (a + b), by have := k.isLt; omega⟩

/-- A row times a matrix: entry `q` is the sum over `i` of `v i * W (i, q)`. -/
def dot {K N : ℕ} (W : (⟨2, ![K, N]⟩ : Shape).Idx → EReal) (v : Row K) : Row N := fun q => ∑ i : Fin K, v i * W (ix2 i q)

/-- A one-axis array as a row. -/
def ofVec {N : ℕ} (b : (⟨1, ![N]⟩ : Shape).Idx → EReal) : Row N := fun q => b (ix1 q)

/-- The logistic function spelt with a negation, an exponential, a sum and a quotient, the ones given as the
    single-precision word of 1, is the logistic function. -/
theorem quot_one_add_expo_neg (a : Row n) :
    quot (const (Ideal.ofBits .f32 0x3F800000#32)) (add (const (Ideal.ofBits .f32 0x3F800000#32)) (expo (neg a))) = logistic a := by
  funext q
  simp only [quot, const, add, expo, neg, logistic, Ideal.ofBits_one_f32]
  rfl

end Row

/-! ### The row of an operation's result from the rows of its operands -/

section pointwise
variable {R n : ℕ} {φ : FTy} (A B : FVec Ideal ⟨2, ![R, n]⟩ φ) (r : Fin R)

theorem rowOf_addf : rowOf (addf A B) r = Row.add (rowOf A r) (rowOf B r) := rfl
theorem rowOf_subf : rowOf (subf A B) r = Row.sub (rowOf A r) (rowOf B r) := rfl
theorem rowOf_mulf : rowOf (mulf A B) r = Row.mul (rowOf A r) (rowOf B r) := rfl
theorem rowOf_maximumf : rowOf (maximumf A B) r = Row.maxr (rowOf A r) (rowOf B r) := rfl
theorem rowOf_logistic : rowOf (logistic A) r = Row.logistic (rowOf A r) := rfl
theorem rowOf_tanh : rowOf (tanh A) r = Row.tanh (rowOf A r) := rfl
theorem rowOf_hostTanh : rowOf (Host.tanh A) r = Row.tanh (rowOf A r) := rfl
theorem rowOf_hostNegf : rowOf (Host.negf A) r = Row.neg (rowOf A r) := rfl
theorem rowOf_hostExp : rowOf (Host.exp A) r = Row.expo (rowOf A r) := rfl
theorem rowOf_hostDivf : rowOf (Host.divf A B) r = Row.quot (rowOf A r) (rowOf B r) := rfl

/-- A change of float format does nothing to a row. -/
theorem rowOf_truncf {ψ : FTy} (h : ψ.bits < φ.bits) : rowOf (truncf ψ A h) r = rowOf A r := rfl

/-- A splat's rows are constant. -/
theorem rowOf_broadcast (x : Ideal φ) : rowOf (broadcast (⟨2, ![R, n]⟩ : Shape) x) r = Row.const x := rfl

/-- A rank-0 constant broadcast to two axes has constant rows. -/
theorem rowOf_scalar_const (w : BitVec φ.bits) (h : (⟨0, ![]⟩ : Shape).BroadcastsInDim ⟨2, ![R, n]⟩ ![]) :
    rowOf (broadcastInDim (⟨2, ![R, n]⟩ : Shape) ![] h (constant (F := Ideal) ⟨0, ![]⟩ φ w)) r = Row.const (Ideal.ofBits φ w) := by
  funext q
  exact broadcastInDim_scalar_apply h _ _

end pointwise

section products
variable {R K N : ℕ} {d : DotDims ⟨2, ![R, K]⟩ ⟨2, ![K, N]⟩ ⟨2, ![R, N]⟩}

/-- Row `r` of a plain product into a zero accumulator is row `r` of the left operand times the right operand. -/
theorem rowOf_matmul (hd : PlainDot.IsPlain d) {φ₁ φ₂ : FTy} (prec : Option ContractPrecision)
    (X : FVec Ideal ⟨2, ![R, K]⟩ φ₁) (W : FVec Ideal ⟨2, ![K, N]⟩ φ₂) (r : Fin R) :
    rowOf (matmul d prec X W (constant ⟨2, ![R, N]⟩ .f32 0x00000000#32)) r = Row.dot W (rowOf X r) :=
  funext fun q => PlainDot.matmul_zero_apply hd prec X W r q

/-- The same for the host's product. -/
theorem rowOf_dotGeneral (hd : PlainDot.IsPlain d) {φ₁ φ₂ : FTy} (prec : Option ContractPrecision)
    (X : FVec Ideal ⟨2, ![R, K]⟩ φ₁) (W : FVec Ideal ⟨2, ![K, N]⟩ φ₂) (r : Fin R) :
    rowOf (Host.dotGeneral d prec X W) r = Row.dot W (rowOf X r) :=
  funext fun q => PlainDot.dotGeneral_apply hd prec _ X W r q

end products

section layout
variable {R : ℕ} {φ : FTy} (r : Fin R)

/-- A one-axis array given a leading unit axis and repeated down `R` rows: every row is the array. -/
theorem rowOf_castRow_broadcastTo {N : ℕ} (b : FVec Ideal ⟨1, ![N]⟩ φ) (h1 : (⟨1, ![N]⟩ : Shape).ShapeCasts ⟨2, ![1, N]⟩)
    (h2 : (⟨2, ![1, N]⟩ : Shape).Broadcasts ⟨2, ![R, N]⟩) :
    rowOf (broadcastTo (⟨2, ![R, N]⟩ : Shape) (shapeCast (⟨2, ![1, N]⟩ : Shape) b h1) h2) r = Row.ofVec b :=
  funext fun q => (broadcastTo_1b_ab_apply _ h2 r q).trans (shapeCast_a_1a_apply b h1 0 q)

/-- The same through two `broadcast_in_dim`s: onto the second of two axes, then down the rows. -/
theorem rowOf_bcastRow_bcast {N : ℕ} (b : FVec Ideal ⟨1, ![N]⟩ φ) (h1 : (⟨1, ![N]⟩ : Shape).BroadcastsInDim ⟨2, ![1, N]⟩ ![1])
    (h2 : (⟨2, ![1, N]⟩ : Shape).BroadcastsInDim ⟨2, ![R, N]⟩ ![0, 1]) :
    rowOf (broadcastInDim (⟨2, ![R, N]⟩ : Shape) ![0, 1] h2 (broadcastInDim (⟨2, ![1, N]⟩ : Shape) ![1] h1 b)) r = Row.ofVec b := by
  funext q
  refine (broadcastInDim_apply ![0, 1] h2 _ (ix2 r q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- Columns `o … o + m - 1` of an array: each row is that stretch of the operand's row. -/
theorem rowOf_sliceCols {n m : ℕ} (o : ℕ) (X : FVec Ideal ⟨2, ![R, n]⟩ φ)
    (h : (⟨2, ![R, n]⟩ : Shape).Slices ![0, o] ⟨2, ![R, m]⟩) (hb : o + m ≤ n) :
    rowOf (extractStridedSlice (⟨2, ![R, m]⟩ : Shape) ![0, o] X h) r = Row.slice o hb (rowOf X r) :=
  funext fun j => slice2_axis1_apply o X h r j ⟨o + j.val, by have := j.isLt; omega⟩ rfl

end layout

section joins
variable {R : ℕ} {φ : FTy} (r : Fin R)

/-- Two arrays joined along the columns: each row is the two rows laid end to end. -/
theorem rowOf_cat2 {a b c : ℕ} (hc : a + b = c) (A : FVec Ideal ⟨2, ![R, a]⟩ φ) (B : FVec Ideal ⟨2, ![R, b]⟩ φ)
    (h : Shape.Concatenates [(⟨2, ![R, a]⟩ : Shape), ⟨2, ![R, b]⟩] ⟨2, ![R, c]⟩ 1) :
    rowOf (concatenate (⟨2, ![R, c]⟩ : Shape) 1 [⟨⟨2, ![R, a]⟩, A⟩, ⟨⟨2, ![R, b]⟩, B⟩] h) r
      = Row.cat2 hc (rowOf A r) (rowOf B r) := by
  funext k
  unfold Row.cat2
  split
  · next hk =>
    exact concatenate_pair_apply_left 1 A B h (ix2 r k) rfl (ix2 r ⟨k.val, hk⟩)
      (fun x => match x with | ⟨0, _⟩ => rfl | ⟨1, _⟩ => rfl)
  · next hk =>
    exact concatenate_pair_apply_right 1 A B h (ix2 r k) rfl rfl (ix2 r ⟨k.val - a, by have := k.isLt; omega⟩)
      (fun x hx => match x, hx with | ⟨0, _⟩, _ => rfl | ⟨1, _⟩, hx => absurd rfl hx)
      (by show (k.val - a) + a = k.val; omega)

/-- Three arrays joined along the columns: each row is the three rows laid end to end. -/
theorem rowOf_cat3 {a b c d : ℕ} (hd : a + b + c = d) (A : FVec Ideal ⟨2, ![R, a]⟩ φ) (B : FVec Ideal ⟨2, ![R, b]⟩ φ)
    (C : FVec Ideal ⟨2, ![R, c]⟩ φ)
    (h : Shape.Concatenates [(⟨2, ![R, a]⟩ : Shape), ⟨2, ![R, b]⟩, ⟨2, ![R, c]⟩] ⟨2, ![R, d]⟩ 1) :
    rowOf (concatenate (⟨2, ![R, d]⟩ : Shape) 1 [⟨⟨2, ![R, a]⟩, A⟩, ⟨⟨2, ![R, b]⟩, B⟩, ⟨⟨2, ![R, c]⟩, C⟩] h) r
      = Row.cat3 hd (rowOf A r) (rowOf B r) (rowOf C r) := by
  funext k
  unfold Row.cat3
  split
  · next hk =>
    exact concatenate_apply_piece 1 ([⟨⟨2, ![R, a]⟩, A⟩, ⟨⟨2, ![R, b]⟩, B⟩, ⟨⟨2, ![R, c]⟩, C⟩] : List ((s : Shape) × (s.Idx → Ideal φ))) h (ix2 r k) 0 (by simp) _ A rfl rfl 0 rfl (ix2 r ⟨k.val, hk⟩)
      (fun x hx => match x, hx with | ⟨0, _⟩, _ => rfl | ⟨1, _⟩, hx => absurd rfl hx)
      (by show 0 + k.val = k.val; omega)
  · next hk =>
    split
    · next hk2 =>
      exact concatenate_apply_piece 1 ([⟨⟨2, ![R, a]⟩, A⟩, ⟨⟨2, ![R, b]⟩, B⟩, ⟨⟨2, ![R, c]⟩, C⟩] : List ((s : Shape) × (s.Idx → Ideal φ))) h (ix2 r k) 1 (by simp) _ B rfl rfl a (by simp) (ix2 r ⟨k.val - a, by omega⟩)
        (fun x hx => match x, hx with | ⟨0, _⟩, _ => rfl | ⟨1, _⟩, hx => absurd rfl hx)
        (by show a + (k.val - a) = k.val; omega)
    · next hk2 =>
      exact concatenate_apply_piece 1 ([⟨⟨2, ![R, a]⟩, A⟩, ⟨⟨2, ![R, b]⟩, B⟩, ⟨⟨2, ![R, c]⟩, C⟩] : List ((s : Shape) × (s.Idx → Ideal φ))) h (ix2 r k) 2 (by simp) _ C rfl rfl (a + b) (by simp)
        (ix2 r ⟨k.val - (a + b), by have := k.isLt; omega⟩)
        (fun x hx => match x, hx with | ⟨0, _⟩, _ => rfl | ⟨1, _⟩, hx => absurd rfl hx)
        (by show a + b + (k.val - (a + b)) = k.val; omega)

end joins

end Rows

end
-- ==== Proof.Spec.lean ====
/-
  One step of a WaveRNN decoder, row by row.

  Every batch row is treated alike: the input projection of `[x | m | a1]`; a gated recurrent cell and a residual; a second
  cell on `[x1 | a2]` and a residual; two dense layers with a positive part on `[x2 | a3]` and `[f1 | a4]`; an output
  layer.  The definitions below spell that on ONE row, with the weights as whole arrays, and then name the three
  results (logits, first new state, second new state) as whole arrays whose row `r` is the network on batch row `r`.
-/
import proofs.«113867_j14224931684623_1_alg».proof.Proof.LibRows

noncomputable section

namespace WaveRnn

open Rows Idealize.ShloMosaic

/-- A two-axis and a one-axis array of extended reals. -/
abbrev Mat (k n : ℕ) := (⟨2, ![k, n]⟩ : Shape).Idx → EReal
abbrev Vec1 (n : ℕ) := (⟨1, ![n]⟩ : Shape).Idx → EReal

/-! ## The layers, on one row -/

/-- A dense layer: the row times the weights (held already transposed, `[inputs, outputs]`), plus the bias. -/
def dense {K N : ℕ} (Wt : Mat K N) (b : Vec1 N) (v : Row K) : Row N := Row.add (Row.dot Wt v) (Row.ofVec b)

/-- The reset gate: the logistic function of the first third of the two pre-activations' sum. -/
def gateR (gi gh : Row 1536) : Row 512 :=
  Row.logistic (Row.add (Row.slice 0 (by norm_num) gi) (Row.slice 0 (by norm_num) gh))

/-- The update gate: the same of the middle third. -/
def gateZ (gi gh : Row 1536) : Row 512 :=
  Row.logistic (Row.add (Row.slice 512 (by norm_num) gi) (Row.slice 512 (by norm_num) gh))

/-- The candidate state: tanh of the input's last third plus the reset gate times the state's last third. -/
def gateN (gi gh : Row 1536) : Row 512 :=
  Row.tanh (Row.add (Row.slice 1024 (by norm_num) gi) (Row.mul (gateR gi gh) (Row.slice 1024 (by norm_num) gh)))

/-- A gated recurrent cell's new state from the two pre-activations and the old state: `(1 - z) n + z h`. -/
def gruOut (gi gh : Row 1536) (h : Row 512) : Row 512 :=
  Row.add (Row.mul (Row.sub (Row.const (Ideal.ofBits .f32 0x3F800000#32)) (gateZ gi gh)) (gateN gi gh)) (Row.mul (gateZ gi gh) h)

/-- A gated recurrent cell on an input row and a state row. -/
def gru {K : ℕ} (WihT : Mat K 1536) (WhhT : Mat 512 1536) (bih bhh : Vec1 1536) (x : Row K) (h : Row 512) : Row 512 :=
  gruOut (dense WihT bih x) (dense WhhT bhh h) h

/-- The positive part. -/
def relu {n : ℕ} (v : Row n) : Row n := Row.maxr v (Row.const (Ideal.ofBits .f32 0x00000000#32))

/-! ## The network, on one row of the batch -/

/-- The weights, each matrix already transposed to `[inputs, outputs]`. -/
structure Params where
  IwT : Mat 113 512
  Ib : Vec1 512
  r1wihT : Mat 512 1536
  r1whhT : Mat 512 1536
  r1bih : Vec1 1536
  r1bhh : Vec1 1536
  r2wihT : Mat 544 1536
  r2whhT : Mat 512 1536
  r2bih : Vec1 1536
  r2bhh : Vec1 1536
  fc1wT : Mat 544 512
  fc1b : Vec1 512
  fc2wT : Mat 544 512
  fc2b : Vec1 512
  fc3wT : Mat 512 512
  fc3b : Vec1 512

/-- One batch row of every activation input. -/
structure Inputs where
  m : Row 80
  a1 : Row 32
  a2 : Row 32
  a3 : Row 32
  a4 : Row 32
  h1 : Row 512
  h2 : Row 512
  x : Row 1

variable (P : Params) (i : Inputs)

/-- The input projection of `[x | m | a1]`. -/
def xI : Row 512 := dense P.IwT P.Ib (Row.cat3 (by norm_num) i.x i.m i.a1)
/-- The first cell's new state. -/
def h1n : Row 512 := gru P.r1wihT P.r1whhT P.r1bih P.r1bhh (xI P i) i.h1
/-- First residual. -/
def x1 : Row 512 := Row.add (xI P i) (h1n P i)
/-- The second cell's new state, on `[x1 | a2]`. -/
def h2n : Row 512 := gru P.r2wihT P.r2whhT P.r2bih P.r2bhh (Row.cat2 (by norm_num) (x1 P i) i.a2) i.h2
/-- Second residual. -/
def x2 : Row 512 := Row.add (x1 P i) (h2n P i)
/-- First hidden layer, on `[x2 | a3]`. -/
def f1 : Row 512 := relu (dense P.fc1wT P.fc1b (Row.cat2 (by norm_num) (x2 P i) i.a3))
/-- Second hidden layer, on `[f1 | a4]`. -/
def f2 : Row 512 := relu (dense P.fc2wT P.fc2b (Row.cat2 (by norm_num) (f1 P i) i.a4))
/-- The output layer. -/
def logits : Row 512 := dense P.fc3wT P.fc3b (f2 P i)

/-! ## The three results as whole arrays of the twenty-four arguments -/

section arrays
variable (a0 : Mat 8192 80) (a1 a2 a3 a4 : Mat 8192 32) (a5 a6 : Mat 8192 512) (a7 : Mat 8192 1)
  (a8 : Mat 512 113) (a9 : Vec1 512) (a10 a11 : Mat 1536 512) (a12 a13 : Vec1 1536) (a14 : Mat 1536 544) (a15 : Mat 1536 512)
  (a16 a17 : Vec1 1536) (a18 : Mat 512 544) (a19 : Vec1 512) (a20 : Mat 512 544) (a21 : Vec1 512) (a22 : Mat 512 512) (a23 : Vec1 512)

/-- The weights from the sixteen weight arguments: every matrix transposed. -/
def paramsOf : Params where
  IwT := transpose ⟨2, ![113, 512]⟩ [1, 0] a8 (by decide)
  Ib := a9
  r1wihT := transpose ⟨2, ![512, 1536]⟩ [1, 0] a10 (by decide)
  r1whhT := transpose ⟨2, ![512, 1536]⟩ [1, 0] a11 (by decide)
  r1bih := a12
  r1bhh := a13
  r2wihT := transpose ⟨2, ![544, 1536]⟩ [1, 0] a14 (by decide)
  r2whhT := transpose ⟨2, ![512, 1536]⟩ [1, 0] a15 (by decide)
  r2bih := a16
  r2bhh := a17
  fc1wT := transpose ⟨2, ![544, 512]⟩ [1, 0] a18 (by decide)
  fc1b := a19
  fc2wT := transpose ⟨2, ![544, 512]⟩ [1, 0] a20 (by decide)
  fc2b := a21
  fc3wT := transpose ⟨2, ![512, 512]⟩ [1, 0] a22 (by decide)
  fc3b := a23

/-- Batch row `r` of the eight activation arguments. -/
def inputsOf (r : Fin 8192) : Inputs where
  m := rowOf a0 r
  a1 := rowOf a1 r
  a2 := rowOf a2 r
  a3 := rowOf a3 r
  a4 := rowOf a4 r
  h1 := rowOf a5 r
  h2 := rowOf a6 r
  x := rowOf a7 r

/-- The logits array: row `r` is the network's output on batch row `r`. -/
def outLogits : Mat 8192 512 :=
  ofRows fun r => logits (paramsOf a8 a9 a10 a11 a12 a13 a14 a15 a16 a17 a18 a19 a20 a21 a22 a23) (inputsOf a0 a1 a2 a3 a4 a5 a6 a7 r)
/-- The first cell's new state array. -/
def outH1n : Mat 8192 512 :=
  ofRows fun r => h1n (paramsOf a8 a9 a10 a11 a12 a13 a14 a15 a16 a17 a18 a19 a20 a21 a22 a23) (inputsOf a0 a1 a2 a3 a4 a5 a6 a7 r)
/-- The second cell's new state array. -/
def outH2n : Mat 8192 512 :=
  ofRows fun r => h2n (paramsOf a8 a9 a10 a11 a12 a13 a14 a15 a16 a17 a18 a19 a20 a21 a22 a23) (inputsOf a0 a1 a2 a3 a4 a5 a6 a7 r)

end arrays

end WaveRnn

end
-- ==== Proof.KernelRows.lean ====
/-
  The kernel's three stored blocks, row by row.

  At one grid point the body holds a 256-row block of each activation input and every weight array whole.  Each of its
  three stores writes a [256, 512] value computed from those; row `p` of each is the network of `Spec.lean` on row `p`
  of the activation blocks, with the weight arrays as the body holds them (already transposed).
-/
import proofs.«113867_j14224931684623_1_alg».proof.Proof.Spec
import proofs.«113867_j14224931684623_1_alg».proof.Proof.Gen.KernelIdeal.Skeleton

noncomputable section

namespace Cert.KernelIdeal.Blocks

open Cert.KernelIdeal Cert.KernelIdeal.Gen Idealize.ShloMosaic Rows WaveRnn

/-- The value the body stores to the first new state's block, from the twenty-four input blocks. -/
def h1nBlk (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) : FVec Ideal S256x512 .f32 :=
  k0_pay8 (F := Ideal) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13)

/-- The value it stores to the second new state's block. -/
def h2nBlk (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) : FVec Ideal S256x512 .f32 :=
  k0_pay10 (F := Ideal) (k0_pay1 (F := Ideal) x7 x0 x1 x8 x9) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13) x2 x6 x14 x15 x16 x17

/-- The value it stores to the logits' block. -/
def logitsBlk (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) : FVec Ideal S256x512 .f32 :=
  k0_pay11 (F := Ideal) (k0_pay9 (F := Ideal) (k0_pay1 (F := Ideal) x7 x0 x1 x8 x9) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13)) (k0_pay10 (F := Ideal) (k0_pay1 (F := Ideal) x7 x0 x1 x8 x9) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13) x2 x6 x14 x15 x16 x17) x3 x18 x19 x4 x20 x21 x22 x23

/-- The weights as the body holds them. -/
def params (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) : Params :=
  ⟨x8, x9, x10, x11, x12, x13, x14, x15, x16, x17, x18, x19, x20, x21, x22, x23⟩

/-- Row `p` of the activation blocks. -/
def inputs (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) (p : Fin 256) : Inputs :=
  ⟨rowOf x0 p, rowOf x1 p, rowOf x2 p, rowOf x3 p, rowOf x4 p, rowOf x5 p, rowOf x6 p, rowOf x7 p⟩

/-! ### The body's five matrix products are plain products -/

theorem plain_113_512 : PlainDot.IsPlain dot_S256x113_S113x512_S256x512_1_0_0_1_n_n := ⟨rfl, rfl, rfl, rfl, rfl, rfl⟩
theorem plain_512_1536 : PlainDot.IsPlain dot_S256x512_S512x1536_S256x1536_1_0_0_1_n_n := ⟨rfl, rfl, rfl, rfl, rfl, rfl⟩
theorem plain_544_1536 : PlainDot.IsPlain dot_S256x544_S544x1536_S256x1536_1_0_0_1_n_n := ⟨rfl, rfl, rfl, rfl, rfl, rfl⟩
theorem plain_544_512 : PlainDot.IsPlain dot_S256x544_S544x512_S256x512_1_0_0_1_n_n := ⟨rfl, rfl, rfl, rfl, rfl, rfl⟩
theorem plain_512_512 : PlainDot.IsPlain dot_S256x512_S512x512_S256x512_1_0_0_1_n_n := ⟨rfl, rfl, rfl, rfl, rfl, rfl⟩

/-! ### One row of each value the body computes, stage by stage

Every stage is made of operations that act on each row alone, so row `p` of a stage's value is a row expression in
row `p` of the values it reads.  Each lemma opens one stage only; the stages it reads stay closed. -/

/-- The input projection: a dense layer on the three input rows laid end to end. -/
theorem pay1_row (v0 : FVec Ideal S256x1 .f32) (v1 : FVec Ideal S256x80 .f32) (v2 : FVec Ideal S256x32 .f32)
    (v5 : FVec Ideal S113x512 .bf16) (v8 : FVec Ideal S512 .f32) (p : Fin 256) :
    rowOf (k0_pay1 (F := Ideal) v0 v1 v2 v5 v8) p
      = dense v5 v8 (Row.cat3 (by norm_num) (rowOf v0 p) (rowOf v1 p) (rowOf v2 p)) := by
  simp only [k0_pay1, rowOf_addf, rowOf_matmul plain_113_512, rowOf_truncf, rowOf_castRow_broadcastTo,
    rowOf_cat3 (hd := (by norm_num : 1 + 80 + 32 = 113)), shapeCast_self]
  rfl

/-- The first cell's pre-activation of its input: a dense layer on the input projection's row. -/
theorem pay2_row (v0 : FVec Ideal S256x1 .f32) (v1 : FVec Ideal S256x80 .f32) (v2 : FVec Ideal S256x32 .f32)
    (v5 : FVec Ideal S113x512 .bf16) (v8 : FVec Ideal S512 .f32) (v13 : FVec Ideal S512x1536 .bf16)
    (v17 : FVec Ideal S1536 .f32) (p : Fin 256) :
    rowOf (k0_pay2 (F := Ideal) v0 v1 v2 v5 v8 v13 v17) p
      = dense v13 v17 (rowOf (k0_pay1 (F := Ideal) v0 v1 v2 v5 v8) p) := by
  simp only [k0_pay2, rowOf_addf, rowOf_matmul plain_512_1536, rowOf_truncf, rowOf_castRow_broadcastTo, shapeCast_self]
  rfl

/-- The first cell's pre-activation of its state: a dense layer on the old state's row. -/
theorem pay3_row (v12 : FVec Ideal S256x512 .f32) (v15 : FVec Ideal S512x1536 .bf16) (v18 : FVec Ideal S1536 .f32)
    (p : Fin 256) :
    rowOf (k0_pay3 (F := Ideal) v12 v15 v18) p = dense v15 v18 (rowOf v12 p) := by
  simp only [k0_pay3, rowOf_addf, rowOf_matmul plain_512_1536, rowOf_truncf, rowOf_castRow_broadcastTo, shapeCast_self]
  rfl

/-- The last third of the input's pre-activation. -/
theorem pay4_row (v0 : FVec Ideal S256x1 .f32) (v1 : FVec Ideal S256x80 .f32) (v2 : FVec Ideal S256x32 .f32)
    (v5 : FVec Ideal S113x512 .bf16) (v8 : FVec Ideal S512 .f32) (v13 : FVec Ideal S512x1536 .bf16)
    (v17 : FVec Ideal S1536 .f32) (p : Fin 256) :
    rowOf (k0_pay4 (F := Ideal) v0 v1 v2 v5 v8 v13 v17) p
      = Row.slice 1024 (by norm_num) (rowOf (k0_pay2 (F := Ideal) v0 v1 v2 v5 v8 v13 v17) p) := by
  simp only [k0_pay4, rowOf_sliceCols (o := 1024) (hb := (by norm_num : 1024 + 512 ≤ 1536))]

/-- The last third of the state's pre-activation. -/
theorem pay5_row (v12 : FVec Ideal S256x512 .f32) (v15 : FVec Ideal S512x1536 .bf16) (v18 : FVec Ideal S1536 .f32)
    (p : Fin 256) :
    rowOf (k0_pay5 (F := Ideal) v12 v15 v18) p
      = Row.slice 1024 (by norm_num) (rowOf (k0_pay3 (F := Ideal) v12 v15 v18) p) := by
  simp only [k0_pay5, rowOf_sliceCols (o := 1024) (hb := (by norm_num : 1024 + 512 ≤ 1536))]

/-- The first cell's reset gate. -/
theorem pay6_row (v0 : FVec Ideal S256x1 .f32) (v1 : FVec Ideal S256x80 .f32) (v2 : FVec Ideal S256x32 .f32)
    (v5 : FVec Ideal S113x512 .bf16) (v8 : FVec Ideal S512 .f32) (v12 : FVec Ideal S256x512 .f32)
    (v13 v15 : FVec Ideal S512x1536 .bf16) (v17 v18 : FVec Ideal S1536 .f32) (p : Fin 256) :
    rowOf (k0_pay6 (F := Ideal) v0 v1 v2 v5 v8 v12 v13 v15 v17 v18) p
      = gateR (rowOf (k0_pay2 (F := Ideal) v0 v1 v2 v5 v8 v13 v17) p) (rowOf (k0_pay3 (F := Ideal) v12 v15 v18) p) := by
  simp only [k0_pay6, rowOf_logistic, rowOf_addf, rowOf_sliceCols (o := 0) (hb := (by norm_num : 0 + 512 ≤ 1536))]
  rfl

/-- The first cell's update gate. -/
theorem pay7_row (v0 : FVec Ideal S256x1 .f32) (v1 : FVec Ideal S256x80 .f32) (v2 : FVec Ideal S256x32 .f32)
    (v5 : FVec Ideal S113x512 .bf16) (v8 : FVec Ideal S512 .f32) (v12 : FVec Ideal S256x512 .f32)
    (v13 v15 : FVec Ideal S512x1536 .bf16) (v17 v18 : FVec Ideal S1536 .f32) (p : Fin 256) :
    rowOf (k0_pay7 (F := Ideal) v0 v1 v2 v5 v8 v12 v13 v15 v17 v18) p
      = gateZ (rowOf (k0_pay2 (F := Ideal) v0 v1 v2 v5 v8 v13 v17) p) (rowOf (k0_pay3 (F := Ideal) v12 v15 v18) p) := by
  simp only [k0_pay7, rowOf_logistic, rowOf_addf, rowOf_sliceCols (o := 512) (hb := (by norm_num : 512 + 512 ≤ 1536))]
  rfl

/-- The cell's blend `(1 - z) tanh (i + r s) + z h` of whatever gates `r`, `z`, thirds `i`, `s` and state `h` it is given. -/
theorem pay8_row (v12 v31 v34 v36 v38 : FVec Ideal S256x512 .f32) (p : Fin 256) :
    rowOf (k0_pay8 (F := Ideal) v12 v31 v34 v36 v38) p
      = Row.add (Row.mul (Row.sub (Row.const (Ideal.ofBits .f32 0x3F800000#32)) (rowOf v38 p))
          (Row.tanh (Row.add (rowOf v31 p) (Row.mul (rowOf v36 p) (rowOf v34 p))))) (Row.mul (rowOf v38 p) (rowOf v12 p)) := by
  simp only [k0_pay8, rowOf_addf, rowOf_subf, rowOf_mulf, rowOf_tanh, rowOf_broadcast]
  rfl

/-- The first cell whole: its new state's row is the cell on the input projection's row and the old state's row. -/
theorem cell1_row (v0 : FVec Ideal S256x1 .f32) (v1 : FVec Ideal S256x80 .f32) (v2 : FVec Ideal S256x32 .f32)
    (v5 : FVec Ideal S113x512 .bf16) (v8 : FVec Ideal S512 .f32) (v12 : FVec Ideal S256x512 .f32)
    (v13 v15 : FVec Ideal S512x1536 .bf16) (v17 v18 : FVec Ideal S1536 .f32) (p : Fin 256) :
    rowOf (k0_pay8 (F := Ideal) v12 (k0_pay4 (F := Ideal) v0 v1 v2 v5 v8 v13 v17) (k0_pay5 (F := Ideal) v12 v15 v18)
        (k0_pay6 (F := Ideal) v0 v1 v2 v5 v8 v12 v13 v15 v17 v18) (k0_pay7 (F := Ideal) v0 v1 v2 v5 v8 v12 v13 v15 v17 v18)) p
      = gru v13 v15 v17 v18 (rowOf (k0_pay1 (F := Ideal) v0 v1 v2 v5 v8) p) (rowOf v12 p) := by
  simp only [pay8_row, pay4_row, pay5_row, pay6_row, pay7_row, pay2_row, pay3_row]
  rfl

/-- The first residual: the input projection's row plus the first cell's new state's row. -/
theorem pay9_row (v11 v12 v31 v34 v36 v38 : FVec Ideal S256x512 .f32) (p : Fin 256) :
    rowOf (k0_pay9 (F := Ideal) v11 v12 v31 v34 v36 v38) p
      = Row.add (rowOf v11 p) (rowOf (k0_pay8 (F := Ideal) v12 v31 v34 v36 v38) p) := by
  simp only [k0_pay9, rowOf_addf]

/-- The second cell whole, on the first residual's row joined with the second auxiliary row. -/
theorem pay10_row (v11 v12 v31 v34 v36 v38 : FVec Ideal S256x512 .f32) (v48 : FVec Ideal S256x32 .f32)
    (v50 : FVec Ideal S256x512 .f32) (v51 : FVec Ideal S544x1536 .bf16) (v53 : FVec Ideal S512x1536 .bf16)
    (v55 v56 : FVec Ideal S1536 .f32) (p : Fin 256) :
    rowOf (k0_pay10 (F := Ideal) v11 v12 v31 v34 v36 v38 v48 v50 v51 v53 v55 v56) p
      = gru v51 v53 v55 v56
          (Row.cat2 (by norm_num) (rowOf (k0_pay9 (F := Ideal) v11 v12 v31 v34 v36 v38) p) (rowOf v48 p)) (rowOf v50 p) := by
  simp only [k0_pay10, rowOf_addf, rowOf_subf, rowOf_mulf, rowOf_logistic, rowOf_tanh, rowOf_broadcast,
    rowOf_matmul plain_544_1536, rowOf_matmul plain_512_1536, rowOf_truncf, rowOf_castRow_broadcastTo,
    rowOf_sliceCols (o := 0) (hb := (by norm_num : 0 + 512 ≤ 1536)),
    rowOf_sliceCols (o := 512) (hb := (by norm_num : 512 + 512 ≤ 1536)),
    rowOf_sliceCols (o := 1024) (hb := (by norm_num : 1024 + 512 ≤ 1536)),
    rowOf_cat2 (hc := (by norm_num : 512 + 32 = 544)), shapeCast_self]
  rfl

/-- The three output layers, on the second residual's row (the sum of the two values given) and the last two auxiliary rows. -/
theorem pay11_row (v47 v84 : FVec Ideal S256x512 .f32) (v86 : FVec Ideal S256x32 .f32) (v89 : FVec Ideal S544x512 .bf16)
    (v92 : FVec Ideal S512 .f32) (v98 : FVec Ideal S256x32 .f32) (v101 : FVec Ideal S544x512 .bf16)
    (v104 : FVec Ideal S512 .f32) (v111 : FVec Ideal S512x512 .bf16) (v114 : FVec Ideal S512 .f32) (p : Fin 256) :
    rowOf (k0_pay11 (F := Ideal) v47 v84 v86 v89 v92 v98 v101 v104 v111 v114) p
      = dense v111 v114 (relu (dense v101 v104 (Row.cat2 (by norm_num)
          (relu (dense v89 v92 (Row.cat2 (by norm_num) (Row.add (rowOf v47 p) (rowOf v84 p)) (rowOf v86 p))))
          (rowOf v98 p)))) := by
  simp only [k0_pay11, rowOf_addf, rowOf_maximumf, rowOf_broadcast, rowOf_matmul plain_544_512,
    rowOf_matmul plain_512_512, rowOf_truncf, rowOf_castRow_broadcastTo,
    rowOf_cat2 (hc := (by norm_num : 512 + 32 = 544)), shapeCast_self]
  rfl

/-! ### The stages against the network of the specification -/

section network
variable (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) (p : Fin 256)

/-- The input projection's row. -/
theorem xI_row : rowOf (k0_pay1 (F := Ideal) x7 x0 x1 x8 x9) p = xI (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) :=
  pay1_row x7 x0 x1 x8 x9 p

/-- The first new state's row. -/
theorem h1n_row : rowOf (k0_pay8 (F := Ideal) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13)) p = h1n (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  rw [cell1_row, xI_row x0 x1 x2 x3 x4 x5 x6 x7 x8 x9 x10 x11 x12 x13 x14 x15 x16 x17 x18 x19 x20 x21 x22 x23 p]
  rfl

/-- The first residual's row. -/
theorem x1_row : rowOf (k0_pay9 (F := Ideal) (k0_pay1 (F := Ideal) x7 x0 x1 x8 x9) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13)) p = WaveRnn.x1 (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  rw [pay9_row, xI_row x0 x1 x2 x3 x4 x5 x6 x7 x8 x9 x10 x11 x12 x13 x14 x15 x16 x17 x18 x19 x20 x21 x22 x23 p, h1n_row x0 x1 x2 x3 x4 x5 x6 x7 x8 x9 x10 x11 x12 x13 x14 x15 x16 x17 x18 x19 x20 x21 x22 x23 p]
  rfl

/-- The second new state's row. -/
theorem h2n_row : rowOf (k0_pay10 (F := Ideal) (k0_pay1 (F := Ideal) x7 x0 x1 x8 x9) x5 (k0_pay4 (F := Ideal) x7 x0 x1 x8 x9 x10 x12) (k0_pay5 (F := Ideal) x5 x11 x13) (k0_pay6 (F := Ideal) x7 x0 x1 x8 x9 x5 x10 x11 x12 x13) (k0_pay7 (F := Ideal) x7 x0 x1 x8 x9 x5 x10 x11 x12 x13) x2 x6 x14 x15 x16 x17) p = h2n (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  rw [pay10_row, x1_row x0 x1 x2 x3 x4 x5 x6 x7 x8 x9 x10 x11 x12 x13 x14 x15 x16 x17 x18 x19 x20 x21 x22 x23 p]
  rfl

end network

theorem h1nBlk_row (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) (p : Fin 256) :
    rowOf (h1nBlk x0 x1 x2 x3 x4 x5 x6 x7 x8 x9 x10 x11 x12 x13 x14 x15 x16 x17 x18 x19 x20 x21 x22 x23) p = h1n (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  exact h1n_row x0 x1 x2 x3 x4 x5 x6 x7 x8 x9 x10 x11 x12 x13 x14 x15 x16 x17 x18 x19 x20 x21 x22 x23 p

theorem h2nBlk_row (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) (p : Fin 256) :
    rowOf (h2nBlk x0 x1 x2 x3 x4 x5 x6 x7 x8 x9 x10 x11 x12 x13 x14 x15 x16 x17 x18 x19 x20 x21 x22 x23) p = h2n (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  exact h2n_row x0 x1 x2 x3 x4 x5 x6 x7 x8 x9 x10 x11 x12 x13 x14 x15 x16 x17 x18 x19 x20 x21 x22 x23 p

theorem logitsBlk_row (x0 : FVec Ideal S256x80 .f32) (x1 : FVec Ideal S256x32 .f32) (x2 : FVec Ideal S256x32 .f32) (x3 : FVec Ideal S256x32 .f32) (x4 : FVec Ideal S256x32 .f32) (x5 : FVec Ideal S256x512 .f32) (x6 : FVec Ideal S256x512 .f32) (x7 : FVec Ideal S256x1 .f32) (x8 : FVec Ideal S113x512 .bf16) (x9 : FVec Ideal S512 .f32) (x10 : FVec Ideal S512x1536 .bf16) (x11 : FVec Ideal S512x1536 .bf16) (x12 : FVec Ideal S1536 .f32) (x13 : FVec Ideal S1536 .f32) (x14 : FVec Ideal S544x1536 .bf16) (x15 : FVec Ideal S512x1536 .bf16) (x16 : FVec Ideal S1536 .f32) (x17 : FVec Ideal S1536 .f32) (x18 : FVec Ideal S544x512 .bf16) (x19 : FVec Ideal S512 .f32) (x20 : FVec Ideal S544x512 .bf16) (x21 : FVec Ideal S512 .f32) (x22 : FVec Ideal S512x512 .bf16) (x23 : FVec Ideal S512 .f32) (p : Fin 256) :
    rowOf (logitsBlk x0 x1 x2 x3 x4 x5 x6 x7 x8 x9 x10 x11 x12 x13 x14 x15 x16 x17 x18 x19 x20 x21 x22 x23) p = logits (params x0 x1 x2 x3 x4 x5 x6 x7 x8 x9 x10 x11 x12 x13 x14 x15 x16 x17 x18 x19 x20 x21 x22 x23) (inputs x0 x1 x2 x3 x4 x5 x6 x7 x8 x9 x10 x11 x12 x13 x14 x15 x16 x17 x18 x19 x20 x21 x22 x23 p) := by
  unfold logitsBlk
  rw [pay11_row, x1_row x0 x1 x2 x3 x4 x5 x6 x7 x8 x9 x10 x11 x12 x13 x14 x15 x16 x17 x18 x19 x20 x21 x22 x23 p, h2n_row x0 x1 x2 x3 x4 x5 x6 x7 x8 x9 x10 x11 x12 x13 x14 x15 x16 x17 x18 x19 x20 x21 x22 x23 p]
  rfl

end Cert.KernelIdeal.Blocks

end
-- ==== Proof.KernelBlocks.lean ====
/- GENERATED by: python3 scratch/mk_kernel_blocks.py > proof/Proof/KernelBlocks.lean (run in the unit directory; the script holds the three hand-written template
   lemmas and the table of windows, and stays in the unit).
   Where each window's block sits in its array.  The pallas_call has 27 windows over a grid of 32 points.  An activation
   window (0 to 7) and an output window (24 to 26) hold block row `t` of their arrays — 256 rows, every column —, so
   row `p` of the block is row `256 t + p` of the array; a weight window (8 to 23) holds its whole array at every
   point; and the eight weight matrices are handed over transposed by the host (the change of float format in
   between is the identity on extended reals).  One lemma per window says so; they differ only in the window's
   number, names and sizes. -/
import proofs.«113867_j14224931684623_1_alg».proof.Proof.LibRows
import proofs.«113867_j14224931684623_1_alg».proof.Proof.Gen.KernelIdeal.Value
import Idealize.ShloMosaic.Lib.StableHlo.Run

noncomputable section

namespace Cert.KernelIdeal.ArrValue

open Cert.KernelIdeal Cert.KernelIdeal.Gen Idealize.ShloMosaic Idealize.ShloMosaic.TcCoe Idealize.SL.Sem
open Idealize.ShloMosaic.ValueIdx Rows
open Idealize.ShloMosaic.Pipeline (Dat)

variable (m : (ℓ : Loc nD τ sig) → Buf (Elt Ideal) ℓ)

/-- The index maps, decided over the 32 grid points. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0
    ∧ win0_13.index t (0 : Fin 1) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 1) = 0
    ∧ win0_17.index t (0 : Fin 1) = 0
    ∧ win0_18.index t (0 : Fin 2) = 0
    ∧ win0_18.index t (1 : Fin 2) = 0
    ∧ win0_19.index t (0 : Fin 1) = 0
    ∧ win0_20.index t (0 : Fin 2) = 0
    ∧ win0_20.index t (1 : Fin 2) = 0
    ∧ win0_21.index t (0 : Fin 1) = 0
    ∧ win0_22.index t (0 : Fin 2) = 0
    ∧ win0_22.index t (1 : Fin 2) = 0
    ∧ win0_23.index t (0 : Fin 1) = 0
    ∧ win0_24.index t (0 : Fin 2) = t.val
    ∧ win0_24.index t (1 : Fin 2) = 0
    ∧ win0_25.index t (0 : Fin 2) = t.val
    ∧ win0_25.index t (1 : Fin 2) = 0
    ∧ win0_26.index t (0 : Fin 2) = t.val
    ∧ win0_26.index t (1 : Fin 2) = 0 :=
  (by decide +kernel : ∀ t : Fin grid0.N, _)

theorem tN (t : Fin cfg0.N) : t.val < 32 := by have := t.isLt; have h : cfg0.N = 32 := N_0; omega

/-- The array row that row `p` of block `t` is. -/
abbrev arow (t : Fin cfg0.N) (p : Fin 256) : Fin 8192 := ⟨256 * t.val + p.val, by have := tN t; have := p.isLt; omega⟩

/-! ## The weight operands the host prepares: each matrix transposed -/

theorem V_main_v1 (c : Dev nD) : (V m c main_v1 : S113x512.Idx → EReal)
    = transpose S113x512 [1, 0] (m ((c : Thread nD τ).loc main_arg8)) transposes_S512x113_S113x512_1_0 := by
  dsimp only [Gen.V, Gen.hostOps0]
  after_results
  rfl

theorem V_main_v3 (c : Dev nD) : (V m c main_v3 : S512x1536.Idx → EReal)
    = transpose S512x1536 [1, 0] (m ((c : Thread nD τ).loc main_arg10)) transposes_S1536x512_S512x1536_1_0 := by
  dsimp only [Gen.V, Gen.hostOps0]
  after_results
  rfl

theorem V_main_v5 (c : Dev nD) : (V m c main_v5 : S512x1536.Idx → EReal)
    = transpose S512x1536 [1, 0] (m ((c : Thread nD τ).loc main_arg11)) transposes_S1536x512_S512x1536_1_0 := by
  dsimp only [Gen.V, Gen.hostOps0]
  after_results
  rfl

theorem V_main_v7 (c : Dev nD) : (V m c main_v7 : S544x1536.Idx → EReal)
    = transpose S544x1536 [1, 0] (m ((c : Thread nD τ).loc main_arg14)) transposes_S1536x544_S544x1536_1_0 := by
  dsimp only [Gen.V, Gen.hostOps0]
  after_results
  rfl

theorem V_main_v9 (c : Dev nD) : (V m c main_v9 : S512x1536.Idx → EReal)
    = transpose S512x1536 [1, 0] (m ((c : Thread nD τ).loc main_arg15)) transposes_S1536x512_S512x1536_1_0 := by
  dsimp only [Gen.V, Gen.hostOps0]
  after_results
  rfl

theorem V_main_v11 (c : Dev nD) : (V m c main_v11 : S544x512.Idx → EReal)
    = transpose S544x512 [1, 0] (m ((c : Thread nD τ).loc main_arg18)) transposes_S512x544_S544x512_1_0 := by
  dsimp only [Gen.V, Gen.hostOps0]
  after_results
  rfl

theorem V_main_v13 (c : Dev nD) : (V m c main_v13 : S544x512.Idx → EReal)
    = transpose S544x512 [1, 0] (m ((c : Thread nD τ).loc main_arg20)) transposes_S512x544_S544x512_1_0 := by
  dsimp only [Gen.V, Gen.hostOps0]
  after_results
  rfl

theorem V_main_v15 (c : Dev nD) : (V m c main_v15 : S512x512.Idx → EReal)
    = transpose S512x512 [1, 0] (m ((c : Thread nD τ).loc main_arg22)) transposes_S512x512_S512x512_1_0 := by
  dsimp only [Gen.V, Gen.hostOps0]
  after_results
  rfl

/-! ## The blocks the body is given -/

/-- Window 8's block is its whole array at every point. -/
theorem blk8 (c : Dev nD) (t : Fin cfg0.N) : (iblk m c 8 t : S113x512.Idx → EReal) = transpose S113x512 [1, 0] (m ((c : Thread nD τ).loc main_arg8)) transposes_S512x113_S113x512_1_0 := by
  rw [← V_main_v1 m c]
  funext y
  unfold iblk
  rw [View.read_apply]
  refine congrArg (V m c main_v1) ?_
  obtain ⟨-, -, -, -, -, -, -, -, -, -, -, -, -, -, -, -, e0, e1, -, -, -, -, -, -, -, -, -, -, -, -, -, -, -, -, -, -, -, -, -, -, -, -, -, -, -, -⟩ := idx_facts t
  funext a; apply Fin.ext
  match a with
  | ⟨0, _⟩ => show win0_8.index t (0 : Fin 2) * 113 + 1 * (y 0).val = (y 0).val; omega
  | ⟨1, _⟩ => show win0_8.index t (1 : Fin 2) * 512 + 1 * (y 1).val = (y 1).val; omega

/-- Window 9's block is its whole array at every point. -/
theorem blk9 (c : Dev nD) (t : Fin cfg0.N) : (iblk m c 9 t : S512.Idx → EReal) = (m ((c : Thread nD τ).loc main_arg9)) := by
  rw [← V_main_arg9 m c]
  funext y
  unfold iblk
  rw [View.read_apply]
  refine congrArg (V m c main_arg9) ?_
  obtain ⟨-, -, -, -, -, -, -, -, -, -, -, -, -, -, -, -, -, -, e0, -, -, -, -, -, -, -, -, -, -, -, -, -, -, -, -, -, -, -, -, -, -, -, -, -, -, -⟩ := idx_facts t
  funext a; apply Fin.ext
  match a with
  | ⟨0, _⟩ => show win0_9.index t (0 : Fin 1) * 512 + 1 * (y 0).val = (y 0).val; omega

/-- Window 10's block is its whole array at every point. -/
theorem blk10 (c : Dev nD) (t : Fin cfg0.N) : (iblk m c 10 t : S512x1536.Idx → EReal) = transpose S512x1536 [1, 0] (m ((c : Thread nD τ).loc main_arg10)) transposes_S1536x512_S512x1536_1_0 := by
  rw [← V_main_v3 m c]
  funext y
  unfold iblk
  rw [View.read_apply]
  refine congrArg (V m c main_v3) ?_
  obtain ⟨-, -, -, -, -, -, -, -, -, -, -, -, -, -, -, -, -, -, -, e0, e1, -, -, -, -, -, -, -, -, -, -, -, -, -, -, -, -, -, -, -, -, -, -, -, -, -⟩ := idx_facts t
  funext a; apply Fin.ext
  match a with
  | ⟨0, _⟩ => show win0_10.index t (0 : Fin 2) * 512 + 1 * (y 0).val = (y 0).val; omega
  | ⟨1, _⟩ => show win0_10.index t (1 : Fin 2) * 1536 + 1 * (y 1).val = (y 1).val; omega

/-- Window 11's block is its whole array at every point. -/
theorem blk11 (c : Dev nD) (t : Fin cfg0.N) : (iblk m c 11 t : S512x1536.Idx → EReal) = transpose S512x1536 [1, 0] (m ((c : Thread nD τ).loc main_arg11)) transposes_S1536x512_S512x1536_1_0 := by
  rw [← V_main_v5 m c]
  funext y
  unfold iblk
  rw [View.read_apply]
  refine congrArg (V m c main_v5) ?_
  obtain ⟨-, -, -, -, -, -, -, -, -, -, -, -, -, -, -, -, -, -, -, -, -, e0, e1, -, -, -, -, -, -, -, -, -, -, -, -, -, -, -, -, -, -, -, -, -, -, -⟩ := idx_facts t
  funext a; apply Fin.ext
  match a with
  | ⟨0, _⟩ => show win0_11.index t (0 : Fin 2) * 512 + 1 * (y 0).val = (y 0).val; omega
  | ⟨1, _⟩ => show win0_11.index t (1 : Fin 2) * 1536 + 1 * (y 1).val = (y 1).val; omega

/-- Window 12's block is its whole array at every point. -/
theorem blk12 (c : Dev nD) (t : Fin cfg0.N) : (iblk m c 12 t : S1536.Idx → EReal) = (m ((c : Thread nD τ).loc main_arg12)) := by
  rw [← V_main_arg12 m c]
  funext y
  unfold iblk
  rw [View.read_apply]
  refine congrArg (V m c main_arg12) ?_
  obtain ⟨-, -, -, -, -, -, -, -, -, -, -, -, -, -, -, -, -, -, -, -, -, -, -, e0, -, -, -, -, -, -, -, -, -, -, -, -, -, -, -, -, -, -, -, -, -, -⟩ := idx_facts t
  funext a; apply Fin.ext
  match a with
  | ⟨0, _⟩ => show win0_12.index t (0 : Fin 1) * 1536 + 1 * (y 0).val = (y 0).val; omega

/-- Window 13's block is its whole array at every point. -/
theorem blk13 (c : Dev nD) (t : Fin cfg0.N) : (iblk m c 13 t : S1536.Idx → EReal) = (m ((c : Thread nD τ).loc main_arg13)) := by
  rw [← V_main_arg13 m c]
  funext y
  unfold iblk
  rw [View.read_apply]
  refine congrArg (V m c main_arg13) ?_
  obtain ⟨-, -, -, -, -, -, -, -, -, -, -, -, -, -, -, -, -, -, -, -, -, -, -, -, e0, -, -, -, -, -, -, -, -, -, -, -, -, -, -, -, -, -, -, -, -, -⟩ := idx_facts t
  funext a; apply Fin.ext
  match a with
  | ⟨0, _⟩ => show win0_13.index t (0 : Fin 1) * 1536 + 1 * (y 0).val = (y 0).val; omega

/-- Window 14's block is its whole array at every point. -/
theorem blk14 (c : Dev nD) (t : Fin cfg0.N) : (iblk m c 14 t : S544x1536.Idx → EReal) = transpose S544x1536 [1, 0] (m ((c : Thread nD τ).loc main_arg14)) transposes_S1536x544_S544x1536_1_0 := by
  rw [← V_main_v7 m c]
  funext y
  unfold iblk
  rw [View.read_apply]
  refine congrArg (V m c main_v7) ?_
  obtain ⟨-, -, -, -, -, -, -, -, -, -, -, -, -, -, -, -, -, -, -, -, -, -, -, -, -, e0, e1, -, -, -, -, -, -, -, -, -, -, -, -, -, -, -, -, -, -, -⟩ := idx_facts t
  funext a; apply Fin.ext
  match a with
  | ⟨0, _⟩ => show win0_14.index t (0 : Fin 2) * 544 + 1 * (y 0).val = (y 0).val; omega
  | ⟨1, _⟩ => show win0_14.index t (1 : Fin 2) * 1536 + 1 * (y 1).val = (y 1).val; omega

/-- Window 15's block is its whole array at every point. -/
theorem blk15 (c : Dev nD) (t : Fin cfg0.N) : (iblk m c 15 t : S512x1536.Idx → EReal) = transpose S512x1536 [1, 0] (m ((c : Thread nD τ).loc main_arg15)) transposes_S1536x512_S512x1536_1_0 := by
  rw [← V_main_v9 m c]
  funext y
  unfold iblk
  rw [View.read_apply]
  refine congrArg (V m c main_v9) ?_
  obtain ⟨-, -, -, -, -, -, -, -, -, -, -, -, -, -, -, -, -, -, -, -, -, -, -, -, -, -, -, e0, e1, -, -, -, -, -, -, -, -, -, -, -, -, -, -, -, -, -⟩ := idx_facts t
  funext a; apply Fin.ext
  match a with
  | ⟨0, _⟩ => show win0_15.index t (0 : Fin 2) * 512 + 1 * (y 0).val = (y 0).val; omega
  | ⟨1, _⟩ => show win0_15.index t (1 : Fin 2) * 1536 + 1 * (y 1).val = (y 1).val; omega

/-- Window 16's block is its whole array at every point. -/
theorem blk16 (c : Dev nD) (t : Fin cfg0.N) : (iblk m c 16 t : S1536.Idx → EReal) = (m ((c : Thread nD τ).loc main_arg16)) := by
  rw [← V_main_arg16 m c]
  funext y
  unfold iblk
  rw [View.read_apply]
  refine congrArg (V m c main_arg16) ?_
  obtain ⟨-, -, -, -, -, -, -, -, -, -, -, -, -, -, -, -, -, -, -, -, -, -, -, -, -, -, -, -, -, e0, -, -, -, -, -, -, -, -, -, -, -, -, -, -, -, -⟩ := idx_facts t
  funext a; apply Fin.ext
  match a with
  | ⟨0, _⟩ => show win0_16.index t (0 : Fin 1) * 1536 + 1 * (y 0).val = (y 0).val; omega

/-- Window 17's block is its whole array at every point. -/
theorem blk17 (c : Dev nD) (t : Fin cfg0.N) : (iblk m c 17 t : S1536.Idx → EReal) = (m ((c : Thread nD τ).loc main_arg17)) := by
  rw [← V_main_arg17 m c]
  funext y
  unfold iblk
  rw [View.read_apply]
  refine congrArg (V m c main_arg17) ?_
  obtain ⟨-, -, -, -, -, -, -, -, -, -, -, -, -, -, -, -, -, -, -, -, -, -, -, -, -, -, -, -, -, -, e0, -, -, -, -, -, -, -, -, -, -, -, -, -, -, -⟩ := idx_facts t
  funext a; apply Fin.ext
  match a with
  | ⟨0, _⟩ => show win0_17.index t (0 : Fin 1) * 1536 + 1 * (y 0).val = (y 0).val; omega

/-- Window 18's block is its whole array at every point. -/
theorem blk18 (c : Dev nD) (t : Fin cfg0.N) : (iblk m c 18 t : S544x512.Idx → EReal) = transpose S544x512 [1, 0] (m ((c : Thread nD τ).loc main_arg18)) transposes_S512x544_S544x512_1_0 := by
  rw [← V_main_v11 m c]
  funext y
  unfold iblk
  rw [View.read_apply]
  refine congrArg (V m c main_v11) ?_
  obtain ⟨-, -, -, -, -, -, -, -, -, -, -, -, -, -, -, -, -, -, -, -, -, -, -, -, -, -, -, -, -, -, -, e0, e1, -, -, -, -, -, -, -, -, -, -, -, -, -⟩ := idx_facts t
  funext a; apply Fin.ext
  match a with
  | ⟨0, _⟩ => show win0_18.index t (0 : Fin 2) * 544 + 1 * (y 0).val = (y 0).val; omega
  | ⟨1, _⟩ => show win0_18.index t (1 : Fin 2) * 512 + 1 * (y 1).val = (y 1).val; omega

/-- Window 19's block is its whole array at every point. -/
theorem blk19 (c : Dev nD) (t : Fin cfg0.N) : (iblk m c 19 t : S512.Idx → EReal) = (m ((c : Thread nD τ).loc main_arg19)) := by
  rw [← V_main_arg19 m c]
  funext y
  unfold iblk
  rw [View.read_apply]
  refine congrArg (V m c main_arg19) ?_
  obtain ⟨-, -, -, -, -, -, -, -, -, -, -, -, -, -, -, -, -, -, -, -, -, -, -, -, -, -, -, -, -, -, -, -, -, e0, -, -, -, -, -, -, -, -, -, -, -, -⟩ := idx_facts t
  funext a; apply Fin.ext
  match a with
  | ⟨0, _⟩ => show win0_19.index t (0 : Fin 1) * 512 + 1 * (y 0).val = (y 0).val; omega

/-- Window 20's block is its whole array at every point. -/
theorem blk20 (c : Dev nD) (t : Fin cfg0.N) : (iblk m c 20 t : S544x512.Idx → EReal) = transpose S544x512 [1, 0] (m ((c : Thread nD τ).loc main_arg20)) transposes_S512x544_S544x512_1_0 := by
  rw [← V_main_v13 m c]
  funext y
  unfold iblk
  rw [View.read_apply]
  refine congrArg (V m c main_v13) ?_
  obtain ⟨-, -, -, -, -, -, -, -, -, -, -, -, -, -, -, -, -, -, -, -, -, -, -, -, -, -, -, -, -, -, -, -, -, -, e0, e1, -, -, -, -, -, -, -, -, -, -⟩ := idx_facts t
  funext a; apply Fin.ext
  match a with
  | ⟨0, _⟩ => show win0_20.index t (0 : Fin 2) * 544 + 1 * (y 0).val = (y 0).val; omega
  | ⟨1, _⟩ => show win0_20.index t (1 : Fin 2) * 512 + 1 * (y 1).val = (y 1).val; omega

/-- Window 21's block is its whole array at every point. -/
theorem blk21 (c : Dev nD) (t : Fin cfg0.N) : (iblk m c 21 t : S512.Idx → EReal) = (m ((c : Thread nD τ).loc main_arg21)) := by
  rw [← V_main_arg21 m c]
  funext y
  unfold iblk
  rw [View.read_apply]
  refine congrArg (V m c main_arg21) ?_
  obtain ⟨-, -, -, -, -, -, -, -, -, -, -, -, -, -, -, -, -, -, -, -, -, -, -, -, -, -, -, -, -, -, -, -, -, -, -, -, e0, -, -, -, -, -, -, -, -, -⟩ := idx_facts t
  funext a; apply Fin.ext
  match a with
  | ⟨0, _⟩ => show win0_21.index t (0 : Fin 1) * 512 + 1 * (y 0).val = (y 0).val; omega

/-- Window 22's block is its whole array at every point. -/
theorem blk22 (c : Dev nD) (t : Fin cfg0.N) : (iblk m c 22 t : S512x512.Idx → EReal) = transpose S512x512 [1, 0] (m ((c : Thread nD τ).loc main_arg22)) transposes_S512x512_S512x512_1_0 := by
  rw [← V_main_v15 m c]
  funext y
  unfold iblk
  rw [View.read_apply]
  refine congrArg (V m c main_v15) ?_
  obtain ⟨-, -, -, -, -, -, -, -, -, -, -, -, -, -, -, -, -, -, -, -, -, -, -, -, -, -, -, -, -, -, -, -, -, -, -, -, -, e0, e1, -, -, -, -, -, -, -⟩ := idx_facts t
  funext a; apply Fin.ext
  match a with
  | ⟨0, _⟩ => show win0_22.index t (0 : Fin 2) * 512 + 1 * (y 0).val = (y 0).val; omega
  | ⟨1, _⟩ => show win0_22.index t (1 : Fin 2) * 512 + 1 * (y 1).val = (y 1).val; omega

/-- Window 23's block is its whole array at every point. -/
theorem blk23 (c : Dev nD) (t : Fin cfg0.N) : (iblk m c 23 t : S512.Idx → EReal) = (m ((c : Thread nD τ).loc main_arg23)) := by
  rw [← V_main_arg23 m c]
  funext y
  unfold iblk
  rw [View.read_apply]
  refine congrArg (V m c main_arg23) ?_
  obtain ⟨-, -, -, -, -, -, -, -, -, -, -, -, -, -, -, -, -, -, -, -, -, -, -, -, -, -, -, -, -, -, -, -, -, -, -, -, -, -, -, e0, -, -, -, -, -, -⟩ := idx_facts t
  funext a; apply Fin.ext
  match a with
  | ⟨0, _⟩ => show win0_23.index t (0 : Fin 1) * 512 + 1 * (y 0).val = (y 0).val; omega

/-- Row `p` of window 0's block at point `t` is row `256 t + p` of its array. -/
theorem blk0_row (c : Dev nD) (t : Fin cfg0.N) (p : Fin 256) :
    rowOf (iblk m c 0 t : S256x80.Idx → EReal) p = rowOf ((m ((c : Thread nD τ).loc main_arg0)) : S8192x80.Idx → EReal) (arow t p) := by
  funext k
  show iblk m c 0 t (ix2 p k) = _
  unfold iblk
  rw [View.read_apply, V_main_arg0]
  refine congrArg (m ((c : Thread nD τ).loc main_arg0)) ?_
  obtain ⟨e0, e1, -, -, -, -, -, -, -, -, -, -, -, -, -, -, -, -, -, -, -, -, -, -, -, -, -, -, -, -, -, -, -, -, -, -, -, -, -, -, -, -, -, -, -, -⟩ := idx_facts t
  funext a; apply Fin.ext
  match a with
  | ⟨0, _⟩ => show win0_0.index t (0 : Fin 2) * 256 + 1 * p.val = 256 * t.val + p.val; omega
  | ⟨1, _⟩ => show win0_0.index t (1 : Fin 2) * 80 + 1 * k.val = k.val; omega

/-- Row `p` of window 1's block at point `t` is row `256 t + p` of its array. -/
theorem blk1_row (c : Dev nD) (t : Fin cfg0.N) (p : Fin 256) :
    rowOf (iblk m c 1 t : S256x32.Idx → EReal) p = rowOf ((m ((c : Thread nD τ).loc main_arg1)) : S8192x32.Idx → EReal) (arow t p) := by
  funext k
  show iblk m c 1 t (ix2 p k) = _
  unfold iblk
  rw [View.read_apply, V_main_arg1]
  refine congrArg (m ((c : Thread nD τ).loc main_arg1)) ?_
  obtain ⟨-, -, e0, e1, -, -, -, -, -, -, -, -, -, -, -, -, -, -, -, -, -, -, -, -, -, -, -, -, -, -, -, -, -, -, -, -, -, -, -, -, -, -, -, -, -, -⟩ := idx_facts t
  funext a; apply Fin.ext
  match a with
  | ⟨0, _⟩ => show win0_1.index t (0 : Fin 2) * 256 + 1 * p.val = 256 * t.val + p.val; omega
  | ⟨1, _⟩ => show win0_1.index t (1 : Fin 2) * 32 + 1 * k.val = k.val; omega

/-- Row `p` of window 2's block at point `t` is row `256 t + p` of its array. -/
theorem blk2_row (c : Dev nD) (t : Fin cfg0.N) (p : Fin 256) :
    rowOf (iblk m c 2 t : S256x32.Idx → EReal) p = rowOf ((m ((c : Thread nD τ).loc main_arg2)) : S8192x32.Idx → EReal) (arow t p) := by
  funext k
  show iblk m c 2 t (ix2 p k) = _
  unfold iblk
  rw [View.read_apply, V_main_arg2]
  refine congrArg (m ((c : Thread nD τ).loc main_arg2)) ?_
  obtain ⟨-, -, -, -, e0, e1, -, -, -, -, -, -, -, -, -, -, -, -, -, -, -, -, -, -, -, -, -, -, -, -, -, -, -, -, -, -, -, -, -, -, -, -, -, -, -, -⟩ := idx_facts t
  funext a; apply Fin.ext
  match a with
  | ⟨0, _⟩ => show win0_2.index t (0 : Fin 2) * 256 + 1 * p.val = 256 * t.val + p.val; omega
  | ⟨1, _⟩ => show win0_2.index t (1 : Fin 2) * 32 + 1 * k.val = k.val; omega

/-- Row `p` of window 3's block at point `t` is row `256 t + p` of its array. -/
theorem blk3_row (c : Dev nD) (t : Fin cfg0.N) (p : Fin 256) :
    rowOf (iblk m c 3 t : S256x32.Idx → EReal) p = rowOf ((m ((c : Thread nD τ).loc main_arg3)) : S8192x32.Idx → EReal) (arow t p) := by
  funext k
  show iblk m c 3 t (ix2 p k) = _
  unfold iblk
  rw [View.read_apply, V_main_arg3]
  refine congrArg (m ((c : Thread nD τ).loc main_arg3)) ?_
  obtain ⟨-, -, -, -, -, -, e0, e1, -, -, -, -, -, -, -, -, -, -, -, -, -, -, -, -, -, -, -, -, -, -, -, -, -, -, -, -, -, -, -, -, -, -, -, -, -, -⟩ := idx_facts t
  funext a; apply Fin.ext
  match a with
  | ⟨0, _⟩ => show win0_3.index t (0 : Fin 2) * 256 + 1 * p.val = 256 * t.val + p.val; omega
  | ⟨1, _⟩ => show win0_3.index t (1 : Fin 2) * 32 + 1 * k.val = k.val; omega

/-- Row `p` of window 4's block at point `t` is row `256 t + p` of its array. -/
theorem blk4_row (c : Dev nD) (t : Fin cfg0.N) (p : Fin 256) :
    rowOf (iblk m c 4 t : S256x32.Idx → EReal) p = rowOf ((m ((c : Thread nD τ).loc main_arg4)) : S8192x32.Idx → EReal) (arow t p) := by
  funext k
  show iblk m c 4 t (ix2 p k) = _
  unfold iblk
  rw [View.read_apply, V_main_arg4]
  refine congrArg (m ((c : Thread nD τ).loc main_arg4)) ?_
  obtain ⟨-, -, -, -, -, -, -, -, e0, e1, -, -, -, -, -, -, -, -, -, -, -, -, -, -, -, -, -, -, -, -, -, -, -, -, -, -, -, -, -, -, -, -, -, -, -, -⟩ := idx_facts t
  funext a; apply Fin.ext
  match a with
  | ⟨0, _⟩ => show win0_4.index t (0 : Fin 2) * 256 + 1 * p.val = 256 * t.val + p.val; omega
  | ⟨1, _⟩ => show win0_4.index t (1 : Fin 2) * 32 + 1 * k.val = k.val; omega

/-- Row `p` of window 5's block at point `t` is row `256 t + p` of its array. -/
theorem blk5_row (c : Dev nD) (t : Fin cfg0.N) (p : Fin 256) :
    rowOf (iblk m c 5 t : S256x512.Idx → EReal) p = rowOf ((m ((c : Thread nD τ).loc main_arg5)) : S8192x512.Idx → EReal) (arow t p) := by
  funext k
  show iblk m c 5 t (ix2 p k) = _
  unfold iblk
  rw [View.read_apply, V_main_arg5]
  refine congrArg (m ((c : Thread nD τ).loc main_arg5)) ?_
  obtain ⟨-, -, -, -, -, -, -, -, -, -, e0, e1, -, -, -, -, -, -, -, -, -, -, -, -, -, -, -, -, -, -, -, -, -, -, -, -, -, -, -, -, -, -, -, -, -, -⟩ := idx_facts t
  funext a; apply Fin.ext
  match a with
  | ⟨0, _⟩ => show win0_5.index t (0 : Fin 2) * 256 + 1 * p.val = 256 * t.val + p.val; omega
  | ⟨1, _⟩ => show win0_5.index t (1 : Fin 2) * 512 + 1 * k.val = k.val; omega

/-- Row `p` of window 6's block at point `t` is row `256 t + p` of its array. -/
theorem blk6_row (c : Dev nD) (t : Fin cfg0.N) (p : Fin 256) :
    rowOf (iblk m c 6 t : S256x512.Idx → EReal) p = rowOf ((m ((c : Thread nD τ).loc main_arg6)) : S8192x512.Idx → EReal) (arow t p) := by
  funext k
  show iblk m c 6 t (ix2 p k) = _
  unfold iblk
  rw [View.read_apply, V_main_arg6]
  refine congrArg (m ((c : Thread nD τ).loc main_arg6)) ?_
  obtain ⟨-, -, -, -, -, -, -, -, -, -, -, -, e0, e1, -, -, -, -, -, -, -, -, -, -, -, -, -, -, -, -, -, -, -, -, -, -, -, -, -, -, -, -, -, -, -, -⟩ := idx_facts t
  funext a; apply Fin.ext
  match a with
  | ⟨0, _⟩ => show win0_6.index t (0 : Fin 2) * 256 + 1 * p.val = 256 * t.val + p.val; omega
  | ⟨1, _⟩ => show win0_6.index t (1 : Fin 2) * 512 + 1 * k.val = k.val; omega

/-- Row `p` of window 7's block at point `t` is row `256 t + p` of its array. -/
theorem blk7_row (c : Dev nD) (t : Fin cfg0.N) (p : Fin 256) :
    rowOf (iblk m c 7 t : S256x1.Idx → EReal) p = rowOf ((m ((c : Thread nD τ).loc main_arg7)) : S8192x1.Idx → EReal) (arow t p) := by
  funext k
  show iblk m c 7 t (ix2 p k) = _
  unfold iblk
  rw [View.read_apply, V_main_arg7]
  refine congrArg (m ((c : Thread nD τ).loc main_arg7)) ?_
  obtain ⟨-, -, -, -, -, -, -, -, -, -, -, -, -, -, e0, e1, -, -, -, -, -, -, -, -, -, -, -, -, -, -, -, -, -, -, -, -, -, -, -, -, -, -, -, -, -, -⟩ := idx_facts t
  funext a; apply Fin.ext
  match a with
  | ⟨0, _⟩ => show win0_7.index t (0 : Fin 2) * 256 + 1 * p.val = 256 * t.val + p.val; omega
  | ⟨1, _⟩ => show win0_7.index t (1 : Fin 2) * 1 + 1 * k.val = k.val; omega

end Cert.KernelIdeal.ArrValue

end
-- ==== Proof.KernelValue.lean ====
/-
  The kernel's three result arrays are the specification's.

  At grid point `t` the body is given rows `256 t … 256 t + 255` of every activation argument and every weight array
  whole (the matrices transposed by the host beforehand), and stores three [256, 512] values that the pipeline writes
  back to block row `t` of the three result arrays.  Row `p` of each stored value is the network of `Spec.lean` on row `p`
  of the activation blocks (`KernelRows.lean`), that is on batch row `256 t + p`; the 32 block rows tile each result
  array; so each result array, after the run, is the specification's array of the arguments.
-/
import proofs.«113867_j14224931684623_1_alg».proof.Proof.KernelRows
import proofs.«113867_j14224931684623_1_alg».proof.Proof.KernelBlocks

noncomputable section

namespace Cert.KernelIdeal.ArrValue

open Cert.KernelIdeal Cert.KernelIdeal.Gen Cert.KernelIdeal.Blocks Idealize.ShloMosaic Idealize.ShloMosaic.TcCoe Idealize.SL.Sem
open Idealize.ShloMosaic.ValueIdx Rows WaveRnn
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## The body's operands at a point, in the specification's words -/

/-- The weights the body holds at any point are the specification's: the weight arguments, each matrix transposed. -/
theorem params_blocks (c : Dev nD) (t : Fin cfg0.N) :
    params (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
      = paramsOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold params paramsOf
  rw [blk8 m c t, blk9 m c t, blk10 m c t, blk11 m c t, blk12 m c t, blk13 m c t, blk14 m c t, blk15 m c t, blk16 m c t, blk17 m c t,
    blk18 m c t, blk19 m c t, blk20 m c t, blk21 m c t, blk22 m c t, blk23 m c t]

/-- Row `p` of the activation blocks at point `t` is batch row `256 t + p` of the activation arguments. -/
theorem inputs_blocks (c : Dev nD) (t : Fin cfg0.N) (p : Fin 256) :
    inputs (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p
      = inputsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (arow t p) := by
  unfold inputs inputsOf
  rw [blk0_row m c t p, blk1_row m c t p, blk2_row m c t p, blk3_row m c t p, blk4_row m c t p, blk5_row m c t p, blk6_row m c t p, blk7_row m c t p]

/-! ## What each point writes back -/

/-- What point `t` writes back to the logits' array is block `t` of the specification's array: row `p` of the stored value is the
    network on row `p` of the activation blocks, which is batch row `256 t + p`. -/
theorem flushed24_eq (c : Dev nD) (t : Fin cfg0.N) :
    (dats m 0 c).flushed 24 t = ((cfg0.win 24).blk t).view.read (Elt Ideal) (outLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  rw [Value.flushed24]
  unfold out0_24
  rw [View.canon_unit_zero hz]
  simp only [View.ld_unit_zero (S := S256x1) hz, View.ld_unit_zero (S := S256x80) hz, View.ld_unit_zero (S := S256x32) hz, View.ld_unit_zero (S := S113x512) hz, View.ld_unit_zero (S := S256x512) hz, View.ld_unit_zero (S := S512x1536) hz, View.ld_unit_zero (S := S544x1536) hz, View.ld_unit_zero (S := S544x512) hz, View.ld_unit_zero (S := S512x512) hz, View.ld_unit_zero (S := S512) hz1, View.ld_unit_zero (S := S1536) hz1]
  funext y
  obtain ⟨p, q, rfl⟩ : ∃ (p : Fin 256) (q : Fin 512), y = ix2 p q := ⟨y 0, y 1, eq_ix2 y⟩
  have hemb : ((cfg0.win 24).blk t).view.emb (ix2 p q) = ix2 (arow t p) q := by
    obtain ⟨-, -, -, -, -, -, -, -, -, -, -, -, -, -, -, -, -, -, -, -, -, -, -, -, -, -, -, -, -, -, -, -, -, -, -, -, -, -, -, -, e0, e1, -, -, -, -⟩ := idx_facts t
    funext a; apply Fin.ext
    match a with
    | ⟨0, _⟩ => show win0_24.index t (0 : Fin 2) * 256 + 1 * p.val = 256 * t.val + p.val; omega
    | ⟨1, _⟩ => show win0_24.index t (1 : Fin 2) * 512 + 1 * q.val = q.val; omega
  show rowOf (logitsBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) p q
      = outLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (((cfg0.win 24).blk t).view.emb (ix2 p q))
  rw [hemb]
  refine (congrFun (logitsBlk_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p) q).trans ?_
  rw [params_blocks m c t, inputs_blocks m c t p]
  rfl

/-- What point `t` writes back to the first new state's array is block `t` of the specification's array: row `p` of the stored value is the
    network on row `p` of the activation blocks, which is batch row `256 t + p`. -/
theorem flushed25_eq (c : Dev nD) (t : Fin cfg0.N) :
    (dats m 0 c).flushed 25 t = ((cfg0.win 25).blk t).view.read (Elt Ideal) (outH1n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  rw [Value.flushed25]
  unfold out0_25
  rw [View.canon_unit_zero hz]
  simp only [View.ld_unit_zero (S := S256x1) hz, View.ld_unit_zero (S := S256x80) hz, View.ld_unit_zero (S := S256x32) hz, View.ld_unit_zero (S := S113x512) hz, View.ld_unit_zero (S := S256x512) hz, View.ld_unit_zero (S := S512x1536) hz, View.ld_unit_zero (S := S544x1536) hz, View.ld_unit_zero (S := S544x512) hz, View.ld_unit_zero (S := S512x512) hz, View.ld_unit_zero (S := S512) hz1, View.ld_unit_zero (S := S1536) hz1]
  funext y
  obtain ⟨p, q, rfl⟩ : ∃ (p : Fin 256) (q : Fin 512), y = ix2 p q := ⟨y 0, y 1, eq_ix2 y⟩
  have hemb : ((cfg0.win 25).blk t).view.emb (ix2 p q) = ix2 (arow t p) q := by
    obtain ⟨-, -, -, -, -, -, -, -, -, -, -, -, -, -, -, -, -, -, -, -, -, -, -, -, -, -, -, -, -, -, -, -, -, -, -, -, -, -, -, -, -, -, e0, e1, -, -⟩ := idx_facts t
    funext a; apply Fin.ext
    match a with
    | ⟨0, _⟩ => show win0_25.index t (0 : Fin 2) * 256 + 1 * p.val = 256 * t.val + p.val; omega
    | ⟨1, _⟩ => show win0_25.index t (1 : Fin 2) * 512 + 1 * q.val = q.val; omega
  show rowOf (h1nBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) p q
      = outH1n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (((cfg0.win 25).blk t).view.emb (ix2 p q))
  rw [hemb]
  refine (congrFun (h1nBlk_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p) q).trans ?_
  rw [params_blocks m c t, inputs_blocks m c t p]
  rfl

/-- What point `t` writes back to the second new state's array is block `t` of the specification's array: row `p` of the stored value is the
    network on row `p` of the activation blocks, which is batch row `256 t + p`. -/
theorem flushed26_eq (c : Dev nD) (t : Fin cfg0.N) :
    (dats m 0 c).flushed 26 t = ((cfg0.win 26).blk t).view.read (Elt Ideal) (outH2n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  rw [Value.flushed26]
  unfold out0_26
  rw [View.canon_unit_zero hz]
  simp only [View.ld_unit_zero (S := S256x1) hz, View.ld_unit_zero (S := S256x80) hz, View.ld_unit_zero (S := S256x32) hz, View.ld_unit_zero (S := S113x512) hz, View.ld_unit_zero (S := S256x512) hz, View.ld_unit_zero (S := S512x1536) hz, View.ld_unit_zero (S := S544x1536) hz, View.ld_unit_zero (S := S544x512) hz, View.ld_unit_zero (S := S512x512) hz, View.ld_unit_zero (S := S512) hz1, View.ld_unit_zero (S := S1536) hz1]
  funext y
  obtain ⟨p, q, rfl⟩ : ∃ (p : Fin 256) (q : Fin 512), y = ix2 p q := ⟨y 0, y 1, eq_ix2 y⟩
  have hemb : ((cfg0.win 26).blk t).view.emb (ix2 p q) = ix2 (arow t p) q := by
    obtain ⟨-, -, -, -, -, -, -, -, -, -, -, -, -, -, -, -, -, -, -, -, -, -, -, -, -, -, -, -, -, -, -, -, -, -, -, -, -, -, -, -, -, -, -, -, e0, e1⟩ := idx_facts t
    funext a; apply Fin.ext
    match a with
    | ⟨0, _⟩ => show win0_26.index t (0 : Fin 2) * 256 + 1 * p.val = 256 * t.val + p.val; omega
    | ⟨1, _⟩ => show win0_26.index t (1 : Fin 2) * 512 + 1 * q.val = q.val; omega
  show rowOf (h2nBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) p q
      = outH2n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (((cfg0.win 26).blk t).view.emb (ix2 p q))
  rw [hemb]
  refine (congrFun (h2nBlk_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p) q).trans ?_
  rw [params_blocks m c t, inputs_blocks m c t p]
  rfl

/-! ## The blocks tile each result array -/

/-- An index of the array is in point `t`'s block iff each coordinate is in the block's range on its axis. -/
theorem mem_blk24 (t : Fin cfg0.N) (i : S8192x512.Idx) :
    i ∈ ((cfg0.win 24).blk t).view.set ↔ ∀ a : Fin 2, win0_24.index t a * S256x512.size a ≤ (i a).val ∧ (i a).val < win0_24.index t a * S256x512.size a + S256x512.size a := by
  show i ∈ ((View.whole main_v16_0).slice (win0_24.rect t)).set ↔ _
  rw [View.set_slice_whole, Rect.mem_set_unit]
  exact Iff.rfl

/-- Every index of the array lies in some point's block: row `r` in the block of point `r / 256`. -/
theorem cover24 (i : S8192x512.Idx) : ∃ t : Fin cfg0.N, (cfg0.win 24).flush t = true ∧ i ∈ ((cfg0.win 24).blk t).view.set := by
  have hi0 : (i 0).val < 8192 := (i 0).isLt
  have hi1 : (i 1).val < 512 := (i 1).isLt
  obtain ⟨t, ht⟩ : ∃ t : Fin cfg0.N, t.val = (i 0).val / 256 :=
    ⟨⟨(i 0).val / 256, by have h : cfg0.N = 32 := N_0; omega⟩, rfl⟩
  refine ⟨t, flush0_24 t, ?_⟩
  rw [mem_blk24]
  obtain ⟨-, -, -, -, -, -, -, -, -, -, -, -, -, -, -, -, -, -, -, -, -, -, -, -, -, -, -, -, -, -, -, -, -, -, -, -, -, -, -, -, e0, e1, -, -, -, -⟩ := idx_facts t
  intro a
  match a with
  | ⟨0, _⟩ => show win0_24.index t (0 : Fin 2) * 256 ≤ (i 0).val ∧ (i 0).val < win0_24.index t (0 : Fin 2) * 256 + 256; omega
  | ⟨1, _⟩ => show win0_24.index t (1 : Fin 2) * 512 ≤ (i 1).val ∧ (i 1).val < win0_24.index t (1 : Fin 2) * 512 + 512; omega

/-- So the array ends holding the specification's. -/
theorem final24 (c : Dev nD) : (dats m 0 c).arrAt 24 cfg0.N = outLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  (dats m 0 c).arrAt_eq_of_cover 24 (outLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (fun t _ => flushed24_eq m c t) cover24

/-- An index of the array is in point `t`'s block iff each coordinate is in the block's range on its axis. -/
theorem mem_blk25 (t : Fin cfg0.N) (i : S8192x512.Idx) :
    i ∈ ((cfg0.win 25).blk t).view.set ↔ ∀ a : Fin 2, win0_25.index t a * S256x512.size a ≤ (i a).val ∧ (i a).val < win0_25.index t a * S256x512.size a + S256x512.size a := by
  show i ∈ ((View.whole main_v16_1).slice (win0_25.rect t)).set ↔ _
  rw [View.set_slice_whole, Rect.mem_set_unit]
  exact Iff.rfl

/-- Every index of the array lies in some point's block: row `r` in the block of point `r / 256`. -/
theorem cover25 (i : S8192x512.Idx) : ∃ t : Fin cfg0.N, (cfg0.win 25).flush t = true ∧ i ∈ ((cfg0.win 25).blk t).view.set := by
  have hi0 : (i 0).val < 8192 := (i 0).isLt
  have hi1 : (i 1).val < 512 := (i 1).isLt
  obtain ⟨t, ht⟩ : ∃ t : Fin cfg0.N, t.val = (i 0).val / 256 :=
    ⟨⟨(i 0).val / 256, by have h : cfg0.N = 32 := N_0; omega⟩, rfl⟩
  refine ⟨t, flush0_25 t, ?_⟩
  rw [mem_blk25]
  obtain ⟨-, -, -, -, -, -, -, -, -, -, -, -, -, -, -, -, -, -, -, -, -, -, -, -, -, -, -, -, -, -, -, -, -, -, -, -, -, -, -, -, -, -, e0, e1, -, -⟩ := idx_facts t
  intro a
  match a with
  | ⟨0, _⟩ => show win0_25.index t (0 : Fin 2) * 256 ≤ (i 0).val ∧ (i 0).val < win0_25.index t (0 : Fin 2) * 256 + 256; omega
  | ⟨1, _⟩ => show win0_25.index t (1 : Fin 2) * 512 ≤ (i 1).val ∧ (i 1).val < win0_25.index t (1 : Fin 2) * 512 + 512; omega

/-- So the array ends holding the specification's. -/
theorem final25 (c : Dev nD) : (dats m 0 c).arrAt 25 cfg0.N = outH1n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  (dats m 0 c).arrAt_eq_of_cover 25 (outH1n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (fun t _ => flushed25_eq m c t) cover25

/-- An index of the array is in point `t`'s block iff each coordinate is in the block's range on its axis. -/
theorem mem_blk26 (t : Fin cfg0.N) (i : S8192x512.Idx) :
    i ∈ ((cfg0.win 26).blk t).view.set ↔ ∀ a : Fin 2, win0_26.index t a * S256x512.size a ≤ (i a).val ∧ (i a).val < win0_26.index t a * S256x512.size a + S256x512.size a := by
  show i ∈ ((View.whole main_v16_2).slice (win0_26.rect t)).set ↔ _
  rw [View.set_slice_whole, Rect.mem_set_unit]
  exact Iff.rfl

/-- Every index of the array lies in some point's block: row `r` in the block of point `r / 256`. -/
theorem cover26 (i : S8192x512.Idx) : ∃ t : Fin cfg0.N, (cfg0.win 26).flush t = true ∧ i ∈ ((cfg0.win 26).blk t).view.set := by
  have hi0 : (i 0).val < 8192 := (i 0).isLt
  have hi1 : (i 1).val < 512 := (i 1).isLt
  obtain ⟨t, ht⟩ : ∃ t : Fin cfg0.N, t.val = (i 0).val / 256 :=
    ⟨⟨(i 0).val / 256, by have h : cfg0.N = 32 := N_0; omega⟩, rfl⟩
  refine ⟨t, flush0_26 t, ?_⟩
  rw [mem_blk26]
  obtain ⟨-, -, -, -, -, -, -, -, -, -, -, -, -, -, -, -, -, -, -, -, -, -, -, -, -, -, -, -, -, -, -, -, -, -, -, -, -, -, -, -, -, -, -, -, e0, e1⟩ := idx_facts t
  intro a
  match a with
  | ⟨0, _⟩ => show win0_26.index t (0 : Fin 2) * 256 ≤ (i 0).val ∧ (i 0).val < win0_26.index t (0 : Fin 2) * 256 + 256; omega
  | ⟨1, _⟩ => show win0_26.index t (1 : Fin 2) * 512 ≤ (i 1).val ∧ (i 1).val < win0_26.index t (1 : Fin 2) * 512 + 512; omega

/-- So the array ends holding the specification's. -/
theorem final26 (c : Dev nD) : (dats m 0 c).arrAt 26 cfg0.N = outH2n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  (dats m 0 c).arrAt_eq_of_cover 26 (outH2n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (fun t _ => flushed26_eq m c t) cover26

/-! ## The run, read -/

/-- The frame run re-posted: each result array is the specification's array of the arguments, the arguments unchanged. -/
theorem run : θ_run defs (onTc (τ := τ) (main (F := Ideal))) ⟨m, fun _ => 0, ρ⟩ fun r => ∀ c : Dev nD,
      r.2.mem ((c : Thread nD τ).loc main_v16_0) = outLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
      ∧ r.2.mem ((c : Thread nD τ).loc main_v16_1) = outH1n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
      ∧ r.2.mem ((c : Thread nD τ).loc main_v16_2) = outH2n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final24 m c), (h c).2.1.trans (final25 m c), (h c).2.2.1.trans (final26 m c), (h c).2.2.2⟩)
    (Value.run_blocks m ρ)

end Cert.KernelIdeal.ArrValue

end
-- ==== Proof.RefRows.lean ====
/-
  The reference's three results are the network of `Spec.lean` on every batch row.

  The reference applies the same layers to the whole batch at once.  Each of its operations makes row `r` of its result
  from row `r` of its operands (and from the weight arrays whole), so row `r` of each result is the network on batch
  row `r`; the logistic function, which the reference spells `1 / (1 + exp (-x))`, is the one function.
-/
import proofs.«113867_j14224931684623_1_alg».proof.Proof.Spec
import proofs.«113867_j14224931684623_1_alg».proof.Proof.Gen.ReferenceIdeal.Read

noncomputable section

namespace Cert.ReferenceIdeal.RefValue

open Cert.ReferenceIdeal Cert.ReferenceIdeal.Read Idealize.ShloMosaic Rows WaveRnn

section stages

variable (x0 : FVec Ideal S8192x80 .f32) (x1 : FVec Ideal S8192x32 .f32) (x2 : FVec Ideal S8192x32 .f32) (x3 : FVec Ideal S8192x32 .f32) (x4 : FVec Ideal S8192x32 .f32) (x5 : FVec Ideal S8192x512 .f32) (x6 : FVec Ideal S8192x512 .f32) (x7 : FVec Ideal S8192x1 .f32) (x8 : FVec Ideal S512x113 .f32) (x9 : FVec Ideal S512 .f32) (x10 : FVec Ideal S1536x512 .f32) (x11 : FVec Ideal S1536x512 .f32) (x12 : FVec Ideal S1536 .f32) (x13 : FVec Ideal S1536 .f32) (x14 : FVec Ideal S1536x544 .f32) (x15 : FVec Ideal S1536x512 .f32) (x16 : FVec Ideal S1536 .f32) (x17 : FVec Ideal S1536 .f32) (x18 : FVec Ideal S512x544 .f32) (x19 : FVec Ideal S512 .f32) (x20 : FVec Ideal S512x544 .f32) (x21 : FVec Ideal S512 .f32) (x22 : FVec Ideal S512x512 .f32) (x23 : FVec Ideal S512 .f32) (r : Fin 8192)

/-- The weights of the twenty-four arguments, and batch row `r` of the activations. -/
local notation "𝐏" => paramsOf x8 x9 x10 x11 x12 x13 x14 x15 x16 x17 x18 x19 x20 x21 x22 x23
local notation "𝐈" => inputsOf x0 x1 x2 x3 x4 x5 x6 x7 r

/-! ### The five products are plain: axis 1 of the left operand against axis 0 of the right one -/

theorem plain_113_512 : PlainDot.IsPlain dot_S8192x113_S113x512_S8192x512_1_0_0_1_n_n := ⟨rfl, rfl, rfl, rfl, rfl, rfl⟩
theorem plain_512_1536 : PlainDot.IsPlain dot_S8192x512_S512x1536_S8192x1536_1_0_0_1_n_n := ⟨rfl, rfl, rfl, rfl, rfl, rfl⟩
theorem plain_544_1536 : PlainDot.IsPlain dot_S8192x544_S544x1536_S8192x1536_1_0_0_1_n_n := ⟨rfl, rfl, rfl, rfl, rfl, rfl⟩
theorem plain_544_512 : PlainDot.IsPlain dot_S8192x544_S544x512_S8192x512_1_0_0_1_n_n := ⟨rfl, rfl, rfl, rfl, rfl, rfl⟩
theorem plain_512_512 : PlainDot.IsPlain dot_S8192x512_S512x512_S8192x512_1_0_0_1_n_n := ⟨rfl, rfl, rfl, rfl, rfl, rfl⟩

/-! ### Row `r` of every stage of the reference, in the order the stages are computed -/

/-- The input projection of `[x | m | a1]`. -/
theorem v5_row :
    rowOf (val_main_v5 (F := Ideal) x0 x1 x7 x8 x9) r = xI 𝐏 𝐈 := by
  simp only [val_main_v5, val_main_v4, val_main_v3, val_main_v2, val_main_v1, val_main_v0, rowOf_addf, rowOf_dotGeneral plain_113_512,
    rowOf_bcastRow_bcast (R := 8192) (φ := .f32) (N := 512), rowOf_cat3 (hd := (by norm_num : 1 + 80 + 32 = 113))]
  rfl

/-- The first cell's pre-activation from its input. -/
theorem v10_row :
    rowOf (val_main_v10 (F := Ideal) x0 x1 x7 x8 x9 x10 x12) r = dense 𝐏.r1wihT 𝐏.r1bih (xI 𝐏 𝐈) := by
  simp only [val_main_v10, val_main_v9, val_main_v8, val_main_v7, val_main_v6, rowOf_addf, rowOf_dotGeneral plain_512_1536,
    rowOf_bcastRow_bcast (R := 8192) (φ := .f32) (N := 1536), v5_row x0 x1 x2 x3 x4 x5 x6 x7 x8 x9 x10 x11 x12 x13 x14 x15 x16 x17 x18 x19 x20 x21 x22 x23 r]
  rfl

/-- The first cell's pre-activation from its old state. -/
theorem v15_row :
    rowOf (val_main_v15 (F := Ideal) x5 x11 x13) r = dense 𝐏.r1whhT 𝐏.r1bhh 𝐈.h1 := by
  simp only [val_main_v15, val_main_v14, val_main_v13, val_main_v12, val_main_v11, rowOf_addf, rowOf_dotGeneral plain_512_1536,
    rowOf_bcastRow_bcast (R := 8192) (φ := .f32) (N := 1536)]
  rfl

/-- The first cell's reset gate: the logistic function, spelt out, of the first thirds' sum. -/
theorem v28_row :
    rowOf (val_main_v28 (F := Ideal) x0 x1 x5 x7 x8 x9 x10 x11 x12 x13) r = gateR (dense 𝐏.r1wihT 𝐏.r1bih (xI 𝐏 𝐈)) (dense 𝐏.r1whhT 𝐏.r1bhh 𝐈.h1) := by
  simp only [val_main_v28, val_main_v27, val_main_v26, val_main_v25, val_main_v24, val_main_v23, val_main_v22, val_main_v19, val_main_v16, val_main_cst, val_main_cst_0, rowOf_hostDivf, rowOf_addf, rowOf_hostExp, rowOf_hostNegf,
    rowOf_scalar_const (R := 8192) (n := 512) (φ := .f32), rowOf_sliceCols (R := 8192) (φ := .f32) (n := 1536) (m := 512) (o := 0) (hb := (by norm_num : 0 + 512 ≤ 1536)),
    Row.quot_one_add_expo_neg, v10_row x0 x1 x2 x3 x4 x5 x6 x7 x8 x9 x10 x11 x12 x13 x14 x15 x16 x17 x18 x19 x20 x21 x22 x23 r, v15_row x0 x1 x2 x3 x4 x5 x6 x7 x8 x9 x10 x11 x12 x13 x14 x15 x16 x17 x18 x19 x20 x21 x22 x23 r]
  rfl

/-- The first cell's update gate: the same of the middle thirds. -/
theorem v35_row :
    rowOf (val_main_v35 (F := Ideal) x0 x1 x5 x7 x8 x9 x10 x11 x12 x13) r = gateZ (dense 𝐏.r1wihT 𝐏.r1bih (xI 𝐏 𝐈)) (dense 𝐏.r1whhT 𝐏.r1bhh 𝐈.h1) := by
  simp only [val_main_v35, val_main_v34, val_main_v33, val_main_v32, val_main_v31, val_main_v30, val_main_v29, val_main_v20, val_main_v17, val_main_cst_1, val_main_cst_2, rowOf_hostDivf, rowOf_addf, rowOf_hostExp, rowOf_hostNegf,
    rowOf_scalar_const (R := 8192) (n := 512) (φ := .f32), rowOf_sliceCols (R := 8192) (φ := .f32) (n := 1536) (m := 512) (o := 512) (hb := (by norm_num : 512 + 512 ≤ 1536)),
    Row.quot_one_add_expo_neg, v10_row x0 x1 x2 x3 x4 x5 x6 x7 x8 x9 x10 x11 x12 x13 x14 x15 x16 x17 x18 x19 x20 x21 x22 x23 r, v15_row x0 x1 x2 x3 x4 x5 x6 x7 x8 x9 x10 x11 x12 x13 x14 x15 x16 x17 x18 x19 x20 x21 x22 x23 r]
  rfl

/-- The first cell's candidate state. -/
theorem v38_row :
    rowOf (val_main_v38 (F := Ideal) x0 x1 x5 x7 x8 x9 x10 x11 x12 x13) r = gateN (dense 𝐏.r1wihT 𝐏.r1bih (xI 𝐏 𝐈)) (dense 𝐏.r1whhT 𝐏.r1bhh 𝐈.h1) := by
  simp only [val_main_v38, val_main_v37, val_main_v36, val_main_v21, val_main_v18, rowOf_hostTanh, rowOf_addf, rowOf_mulf,
    rowOf_sliceCols (R := 8192) (φ := .f32) (n := 1536) (m := 512) (o := 1024) (hb := (by norm_num : 1024 + 512 ≤ 1536)),
    v10_row x0 x1 x2 x3 x4 x5 x6 x7 x8 x9 x10 x11 x12 x13 x14 x15 x16 x17 x18 x19 x20 x21 x22 x23 r, v15_row x0 x1 x2 x3 x4 x5 x6 x7 x8 x9 x10 x11 x12 x13 x14 x15 x16 x17 x18 x19 x20 x21 x22 x23 r, v28_row x0 x1 x2 x3 x4 x5 x6 x7 x8 x9 x10 x11 x12 x13 x14 x15 x16 x17 x18 x19 x20 x21 x22 x23 r]
  rfl

/-- The first cell's new state, `(1 - z) n + z h`. -/
theorem v43_row :
    rowOf (val_main_v43 (F := Ideal) x0 x1 x5 x7 x8 x9 x10 x11 x12 x13) r = h1n 𝐏 𝐈 := by
  simp only [val_main_v43, val_main_v42, val_main_v41, val_main_v40, val_main_v39, val_main_cst_3, rowOf_addf, rowOf_mulf, rowOf_subf,
    rowOf_scalar_const (R := 8192) (n := 512) (φ := .f32), v35_row x0 x1 x2 x3 x4 x5 x6 x7 x8 x9 x10 x11 x12 x13 x14 x15 x16 x17 x18 x19 x20 x21 x22 x23 r, v38_row x0 x1 x2 x3 x4 x5 x6 x7 x8 x9 x10 x11 x12 x13 x14 x15 x16 x17 x18 x19 x20 x21 x22 x23 r]
  rfl

/-- The first residual. -/
theorem v44_row :
    rowOf (val_main_v44 (F := Ideal) x0 x1 x5 x7 x8 x9 x10 x11 x12 x13) r = WaveRnn.x1 𝐏 𝐈 := by
  simp only [val_main_v44, rowOf_addf, v5_row x0 x1 x2 x3 x4 x5 x6 x7 x8 x9 x10 x11 x12 x13 x14 x15 x16 x17 x18 x19 x20 x21 x22 x23 r, v43_row x0 x1 x2 x3 x4 x5 x6 x7 x8 x9 x10 x11 x12 x13 x14 x15 x16 x17 x18 x19 x20 x21 x22 x23 r]
  rfl

/-- The second cell's pre-activation from its input `[x1 | a2]`. -/
theorem v50_row :
    rowOf (val_main_v50 (F := Ideal) x0 x1 x2 x5 x7 x8 x9 x10 x11 x12 x13 x14 x16) r = dense 𝐏.r2wihT 𝐏.r2bih (Row.cat2 (by norm_num) (WaveRnn.x1 𝐏 𝐈) 𝐈.a2) := by
  simp only [val_main_v50, val_main_v49, val_main_v48, val_main_v47, val_main_v46, val_main_v45, rowOf_addf, rowOf_dotGeneral plain_544_1536,
    rowOf_bcastRow_bcast (R := 8192) (φ := .f32) (N := 1536), rowOf_cat2 (R := 8192) (φ := .f32) (hc := (by norm_num : 512 + 32 = 544)), v44_row x0 x1 x2 x3 x4 x5 x6 x7 x8 x9 x10 x11 x12 x13 x14 x15 x16 x17 x18 x19 x20 x21 x22 x23 r]
  rfl

/-- The second cell's pre-activation from its old state. -/
theorem v55_row :
    rowOf (val_main_v55 (F := Ideal) x6 x15 x17) r = dense 𝐏.r2whhT 𝐏.r2bhh 𝐈.h2 := by
  simp only [val_main_v55, val_main_v54, val_main_v53, val_main_v52, val_main_v51, rowOf_addf, rowOf_dotGeneral plain_512_1536,
    rowOf_bcastRow_bcast (R := 8192) (φ := .f32) (N := 1536)]
  rfl

/-- The second cell's reset gate. -/
theorem v68_row :
    rowOf (val_main_v68 (F := Ideal) x0 x1 x2 x5 x6 x7 x8 x9 x10 x11 x12 x13 x14 x15 x16 x17) r = gateR (dense 𝐏.r2wihT 𝐏.r2bih (Row.cat2 (by norm_num) (WaveRnn.x1 𝐏 𝐈) 𝐈.a2)) (dense 𝐏.r2whhT 𝐏.r2bhh 𝐈.h2) := by
  simp only [val_main_v68, val_main_v67, val_main_v66, val_main_v65, val_main_v64, val_main_v63, val_main_v62, val_main_v59, val_main_v56, val_main_cst_4, val_main_cst_5, rowOf_hostDivf, rowOf_addf, rowOf_hostExp, rowOf_hostNegf,
    rowOf_scalar_const (R := 8192) (n := 512) (φ := .f32), rowOf_sliceCols (R := 8192) (φ := .f32) (n := 1536) (m := 512) (o := 0) (hb := (by norm_num : 0 + 512 ≤ 1536)),
    Row.quot_one_add_expo_neg, v50_row x0 x1 x2 x3 x4 x5 x6 x7 x8 x9 x10 x11 x12 x13 x14 x15 x16 x17 x18 x19 x20 x21 x22 x23 r, v55_row x0 x1 x2 x3 x4 x5 x6 x7 x8 x9 x10 x11 x12 x13 x14 x15 x16 x17 x18 x19 x20 x21 x22 x23 r]
  rfl

/-- The second cell's update gate. -/
theorem v75_row :
    rowOf (val_main_v75 (F := Ideal) x0 x1 x2 x5 x6 x7 x8 x9 x10 x11 x12 x13 x14 x15 x16 x17) r = gateZ (dense 𝐏.r2wihT 𝐏.r2bih (Row.cat2 (by norm_num) (WaveRnn.x1 𝐏 𝐈) 𝐈.a2)) (dense 𝐏.r2whhT 𝐏.r2bhh 𝐈.h2) := by
  simp only [val_main_v75, val_main_v74, val_main_v73, val_main_v72, val_main_v71, val_main_v70, val_main_v69, val_main_v60, val_main_v57, val_main_cst_6, val_main_cst_7, rowOf_hostDivf, rowOf_addf, rowOf_hostExp, rowOf_hostNegf,
    rowOf_scalar_const (R := 8192) (n := 512) (φ := .f32), rowOf_sliceCols (R := 8192) (φ := .f32) (n := 1536) (m := 512) (o := 512) (hb := (by norm_num : 512 + 512 ≤ 1536)),
    Row.quot_one_add_expo_neg, v50_row x0 x1 x2 x3 x4 x5 x6 x7 x8 x9 x10 x11 x12 x13 x14 x15 x16 x17 x18 x19 x20 x21 x22 x23 r, v55_row x0 x1 x2 x3 x4 x5 x6 x7 x8 x9 x10 x11 x12 x13 x14 x15 x16 x17 x18 x19 x20 x21 x22 x23 r]
  rfl

/-- The second cell's candidate state. -/
theorem v78_row :
    rowOf (val_main_v78 (F := Ideal) x0 x1 x2 x5 x6 x7 x8 x9 x10 x11 x12 x13 x14 x15 x16 x17) r = gateN (dense 𝐏.r2wihT 𝐏.r2bih (Row.cat2 (by norm_num) (WaveRnn.x1 𝐏 𝐈) 𝐈.a2)) (dense 𝐏.r2whhT 𝐏.r2bhh 𝐈.h2) := by
  simp only [val_main_v78, val_main_v77, val_main_v76, val_main_v61, val_main_v58, rowOf_hostTanh, rowOf_addf, rowOf_mulf,
    rowOf_sliceCols (R := 8192) (φ := .f32) (n := 1536) (m := 512) (o := 1024) (hb := (by norm_num : 1024 + 512 ≤ 1536)),
    v50_row x0 x1 x2 x3 x4 x5 x6 x7 x8 x9 x10 x11 x12 x13 x14 x15 x16 x17 x18 x19 x20 x21 x22 x23 r, v55_row x0 x1 x2 x3 x4 x5 x6 x7 x8 x9 x10 x11 x12 x13 x14 x15 x16 x17 x18 x19 x20 x21 x22 x23 r, v68_row x0 x1 x2 x3 x4 x5 x6 x7 x8 x9 x10 x11 x12 x13 x14 x15 x16 x17 x18 x19 x20 x21 x22 x23 r]
  rfl

/-- The second cell's new state. -/
theorem v83_row :
    rowOf (val_main_v83 (F := Ideal) x0 x1 x2 x5 x6 x7 x8 x9 x10 x11 x12 x13 x14 x15 x16 x17) r = h2n 𝐏 𝐈 := by
  simp only [val_main_v83, val_main_v82, val_main_v81, val_main_v80, val_main_v79, val_main_cst_8, rowOf_addf, rowOf_mulf, rowOf_subf,
    rowOf_scalar_const (R := 8192) (n := 512) (φ := .f32), v75_row x0 x1 x2 x3 x4 x5 x6 x7 x8 x9 x10 x11 x12 x13 x14 x15 x16 x17 x18 x19 x20 x21 x22 x23 r, v78_row x0 x1 x2 x3 x4 x5 x6 x7 x8 x9 x10 x11 x12 x13 x14 x15 x16 x17 x18 x19 x20 x21 x22 x23 r]
  rfl

/-- The second residual. -/
theorem v84_row :
    rowOf (val_main_v84 (F := Ideal) x0 x1 x2 x5 x6 x7 x8 x9 x10 x11 x12 x13 x14 x15 x16 x17) r = WaveRnn.x2 𝐏 𝐈 := by
  simp only [val_main_v84, rowOf_addf, v44_row x0 x1 x2 x3 x4 x5 x6 x7 x8 x9 x10 x11 x12 x13 x14 x15 x16 x17 x18 x19 x20 x21 x22 x23 r, v83_row x0 x1 x2 x3 x4 x5 x6 x7 x8 x9 x10 x11 x12 x13 x14 x15 x16 x17 x18 x19 x20 x21 x22 x23 r]
  rfl

/-- The first hidden layer before its positive part, on `[x2 | a3]`. -/
theorem v90_row :
    rowOf (val_main_v90 (F := Ideal) x0 x1 x2 x3 x5 x6 x7 x8 x9 x10 x11 x12 x13 x14 x15 x16 x17 x18 x19) r = dense 𝐏.fc1wT 𝐏.fc1b (Row.cat2 (by norm_num) (WaveRnn.x2 𝐏 𝐈) 𝐈.a3) := by
  simp only [val_main_v90, val_main_v89, val_main_v88, val_main_v87, val_main_v86, val_main_v85, rowOf_addf, rowOf_dotGeneral plain_544_512,
    rowOf_bcastRow_bcast (R := 8192) (φ := .f32) (N := 512), rowOf_cat2 (R := 8192) (φ := .f32) (hc := (by norm_num : 512 + 32 = 544)), v84_row x0 x1 x2 x3 x4 x5 x6 x7 x8 x9 x10 x11 x12 x13 x14 x15 x16 x17 x18 x19 x20 x21 x22 x23 r]
  rfl

/-- The first hidden layer: the positive part is the larger of the entry and zero. -/
theorem v91_row :
    rowOf (val_main_v91 (F := Ideal) x0 x1 x2 x3 x5 x6 x7 x8 x9 x10 x11 x12 x13 x14 x15 x16 x17 x18 x19) r = f1 𝐏 𝐈 := by
  simp only [val_main_v91, val_main_call0_v0, val_main_call0_cst, rowOf_maximumf, rowOf_scalar_const (R := 8192) (n := 512) (φ := .f32), v90_row x0 x1 x2 x3 x4 x5 x6 x7 x8 x9 x10 x11 x12 x13 x14 x15 x16 x17 x18 x19 x20 x21 x22 x23 r]
  rfl

/-- The second hidden layer before its positive part, on `[f1 | a4]`. -/
theorem v97_row :
    rowOf (val_main_v97 (F := Ideal) x0 x1 x2 x3 x4 x5 x6 x7 x8 x9 x10 x11 x12 x13 x14 x15 x16 x17 x18 x19 x20 x21) r = dense 𝐏.fc2wT 𝐏.fc2b (Row.cat2 (by norm_num) (f1 𝐏 𝐈) 𝐈.a4) := by
  simp only [val_main_v97, val_main_v96, val_main_v95, val_main_v94, val_main_v93, val_main_v92, rowOf_addf, rowOf_dotGeneral plain_544_512,
    rowOf_bcastRow_bcast (R := 8192) (φ := .f32) (N := 512), rowOf_cat2 (R := 8192) (φ := .f32) (hc := (by norm_num : 512 + 32 = 544)), v91_row x0 x1 x2 x3 x4 x5 x6 x7 x8 x9 x10 x11 x12 x13 x14 x15 x16 x17 x18 x19 x20 x21 x22 x23 r]
  rfl

/-- The second hidden layer. -/
theorem v98_row :
    rowOf (val_main_v98 (F := Ideal) x0 x1 x2 x3 x4 x5 x6 x7 x8 x9 x10 x11 x12 x13 x14 x15 x16 x17 x18 x19 x20 x21) r = f2 𝐏 𝐈 := by
  simp only [val_main_v98, val_main_call1_v0, val_main_call1_cst, rowOf_maximumf, rowOf_scalar_const (R := 8192) (n := 512) (φ := .f32), v97_row x0 x1 x2 x3 x4 x5 x6 x7 x8 x9 x10 x11 x12 x13 x14 x15 x16 x17 x18 x19 x20 x21 x22 x23 r]
  rfl

/-- The output layer. -/
theorem v103_row :
    rowOf (val_main_v103 (F := Ideal) x0 x1 x2 x3 x4 x5 x6 x7 x8 x9 x10 x11 x12 x13 x14 x15 x16 x17 x18 x19 x20 x21 x22 x23) r = logits 𝐏 𝐈 := by
  simp only [val_main_v103, val_main_v102, val_main_v101, val_main_v100, val_main_v99, rowOf_addf, rowOf_dotGeneral plain_512_512,
    rowOf_bcastRow_bcast (R := 8192) (φ := .f32) (N := 512), v98_row x0 x1 x2 x3 x4 x5 x6 x7 x8 x9 x10 x11 x12 x13 x14 x15 x16 x17 x18 x19 x20 x21 x22 x23 r]
  rfl

end stages

/-! ### The three results: an array is determined by its rows -/

theorem h1n_eq (x0 : FVec Ideal S8192x80 .f32) (x1 : FVec Ideal S8192x32 .f32) (x2 : FVec Ideal S8192x32 .f32) (x3 : FVec Ideal S8192x32 .f32) (x4 : FVec Ideal S8192x32 .f32) (x5 : FVec Ideal S8192x512 .f32) (x6 : FVec Ideal S8192x512 .f32) (x7 : FVec Ideal S8192x1 .f32) (x8 : FVec Ideal S512x113 .f32) (x9 : FVec Ideal S512 .f32) (x10 : FVec Ideal S1536x512 .f32) (x11 : FVec Ideal S1536x512 .f32) (x12 : FVec Ideal S1536 .f32) (x13 : FVec Ideal S1536 .f32) (x14 : FVec Ideal S1536x544 .f32) (x15 : FVec Ideal S1536x512 .f32) (x16 : FVec Ideal S1536 .f32) (x17 : FVec Ideal S1536 .f32) (x18 : FVec Ideal S512x544 .f32) (x19 : FVec Ideal S512 .f32) (x20 : FVec Ideal S512x544 .f32) (x21 : FVec Ideal S512 .f32) (x22 : FVec Ideal S512x512 .f32) (x23 : FVec Ideal S512 .f32) :
    val_main_v43 (F := Ideal) x0 x1 x5 x7 x8 x9 x10 x11 x12 x13 = outH1n x0 x1 x2 x3 x4 x5 x6 x7 x8 x9 x10 x11 x12 x13 x14 x15 x16 x17 x18 x19 x20 x21 x22 x23 := by
  refine eq_ofRows _ _ fun r => ?_
  exact v43_row x0 x1 x2 x3 x4 x5 x6 x7 x8 x9 x10 x11 x12 x13 x14 x15 x16 x17 x18 x19 x20 x21 x22 x23 r

theorem h2n_eq (x0 : FVec Ideal S8192x80 .f32) (x1 : FVec Ideal S8192x32 .f32) (x2 : FVec Ideal S8192x32 .f32) (x3 : FVec Ideal S8192x32 .f32) (x4 : FVec Ideal S8192x32 .f32) (x5 : FVec Ideal S8192x512 .f32) (x6 : FVec Ideal S8192x512 .f32) (x7 : FVec Ideal S8192x1 .f32) (x8 : FVec Ideal S512x113 .f32) (x9 : FVec Ideal S512 .f32) (x10 : FVec Ideal S1536x512 .f32) (x11 : FVec Ideal S1536x512 .f32) (x12 : FVec Ideal S1536 .f32) (x13 : FVec Ideal S1536 .f32) (x14 : FVec Ideal S1536x544 .f32) (x15 : FVec Ideal S1536x512 .f32) (x16 : FVec Ideal S1536 .f32) (x17 : FVec Ideal S1536 .f32) (x18 : FVec Ideal S512x544 .f32) (x19 : FVec Ideal S512 .f32) (x20 : FVec Ideal S512x544 .f32) (x21 : FVec Ideal S512 .f32) (x22 : FVec Ideal S512x512 .f32) (x23 : FVec Ideal S512 .f32) :
    val_main_v83 (F := Ideal) x0 x1 x2 x5 x6 x7 x8 x9 x10 x11 x12 x13 x14 x15 x16 x17 = outH2n x0 x1 x2 x3 x4 x5 x6 x7 x8 x9 x10 x11 x12 x13 x14 x15 x16 x17 x18 x19 x20 x21 x22 x23 := by
  refine eq_ofRows _ _ fun r => ?_
  exact v83_row x0 x1 x2 x3 x4 x5 x6 x7 x8 x9 x10 x11 x12 x13 x14 x15 x16 x17 x18 x19 x20 x21 x22 x23 r

theorem logits_eq (x0 : FVec Ideal S8192x80 .f32) (x1 : FVec Ideal S8192x32 .f32) (x2 : FVec Ideal S8192x32 .f32) (x3 : FVec Ideal S8192x32 .f32) (x4 : FVec Ideal S8192x32 .f32) (x5 : FVec Ideal S8192x512 .f32) (x6 : FVec Ideal S8192x512 .f32) (x7 : FVec Ideal S8192x1 .f32) (x8 : FVec Ideal S512x113 .f32) (x9 : FVec Ideal S512 .f32) (x10 : FVec Ideal S1536x512 .f32) (x11 : FVec Ideal S1536x512 .f32) (x12 : FVec Ideal S1536 .f32) (x13 : FVec Ideal S1536 .f32) (x14 : FVec Ideal S1536x544 .f32) (x15 : FVec Ideal S1536x512 .f32) (x16 : FVec Ideal S1536 .f32) (x17 : FVec Ideal S1536 .f32) (x18 : FVec Ideal S512x544 .f32) (x19 : FVec Ideal S512 .f32) (x20 : FVec Ideal S512x544 .f32) (x21 : FVec Ideal S512 .f32) (x22 : FVec Ideal S512x512 .f32) (x23 : FVec Ideal S512 .f32) :
    val_main_v103 (F := Ideal) x0 x1 x2 x3 x4 x5 x6 x7 x8 x9 x10 x11 x12 x13 x14 x15 x16 x17 x18 x19 x20 x21 x22 x23 = outLogits x0 x1 x2 x3 x4 x5 x6 x7 x8 x9 x10 x11 x12 x13 x14 x15 x16 x17 x18 x19 x20 x21 x22 x23 := by
  refine eq_ofRows _ _ fun r => ?_
  exact v103_row x0 x1 x2 x3 x4 x5 x6 x7 x8 x9 x10 x11 x12 x13 x14 x15 x16 x17 x18 x19 x20 x21 x22 x23 r

end Cert.ReferenceIdeal.RefValue

end
-- ==== Proof.lean ====
/-
  A WaveRNN decoder step as one pallas_call, tiled over 32 blocks of 256 batch rows, against the same step written in
  jnp on the whole batch: the three results (logits, the two recurrent cells' new states) are equal as extended reals.

  Both programs apply, to every batch row, the same chain: a dense layer on `[x | m | a1]`; a gated recurrent cell and a
  residual; a second cell on `[x1 | a2]` and a residual; two dense layers with a positive part; an output layer
  (`Proof/Spec.lean`).  Every operation of the chain makes row `r` of its result from row `r` of its operands
  (`Proof/LibRows.lean`), so on each side row `r` of a result is that chain on batch row `r`: for the kernel at each grid
  point (`Proof/KernelRows.lean`) and then over the 32 block rows that tile each result array (`Proof/KernelBlocks.lean`,
  `Proof/KernelValue.lean`), for the reference on the whole arrays (`Proof/RefRows.lean`).  The products are sums over
  the same index sets; the kernel's weights are the reference's transposed matrices, transposed by the host before the
  call; a change of float format is the identity on extended reals; and the kernel's logistic operation is the
  reference's `1 / (1 + exp (-x))`.  No law that needs finite values is used, so the precondition is never opened.
-/
import proofs.«113867_j14224931684623_1_alg».proof.Defs
import proofs.«113867_j14224931684623_1_alg».proof.Proof.Gen.Kernel
import proofs.«113867_j14224931684623_1_alg».proof.Proof.Gen.Kernel.Skeleton
import proofs.«113867_j14224931684623_1_alg».proof.Proof.Gen.Kernel.Launch
import proofs.«113867_j14224931684623_1_alg».proof.Proof.Gen.Kernel.Points
import proofs.«113867_j14224931684623_1_alg».proof.Proof.Gen.Kernel.Frame
import proofs.«113867_j14224931684623_1_alg».proof.Proof.Gen.KernelIdeal
import proofs.«113867_j14224931684623_1_alg».proof.Proof.Gen.KernelIdeal.Skeleton
import proofs.«113867_j14224931684623_1_alg».proof.Proof.Gen.KernelIdeal.Launch
import proofs.«113867_j14224931684623_1_alg».proof.Proof.Gen.KernelIdeal.Points
import proofs.«113867_j14224931684623_1_alg».proof.Proof.Gen.KernelIdeal.Frame
import proofs.«113867_j14224931684623_1_alg».proof.Proof.Gen.ReferenceIdeal
import proofs.«113867_j14224931684623_1_alg».proof.Proof.Gen.Pre_finite_inputs
import proofs.«113867_j14224931684623_1_alg».proof.Proof.Gen.KernelIdeal.Value
import proofs.«113867_j14224931684623_1_alg».proof.Proof.Gen.ReferenceIdeal.Run
import proofs.«113867_j14224931684623_1_alg».proof.Proof.Gen.ReferenceIdeal.Read
import proofs.«113867_j14224931684623_1_alg».proof.Proof.KernelValue
import proofs.«113867_j14224931684623_1_alg».proof.Proof.RefRows
import Idealize.ShloMosaic.Adequacy
import Idealize.ShloMosaic.Init

noncomputable section

namespace Cert.Proof

open Idealize.ShloMosaic Idealize.SL.Sem

namespace Claims

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The specification's three arrays of equal arguments are equal. -/
theorem outs_congr {a0 b0 : WaveRnn.Mat 8192 80} {a1 b1 : WaveRnn.Mat 8192 32} {a2 b2 : WaveRnn.Mat 8192 32} {a3 b3 : WaveRnn.Mat 8192 32} {a4 b4 : WaveRnn.Mat 8192 32} {a5 b5 : WaveRnn.Mat 8192 512} {a6 b6 : WaveRnn.Mat 8192 512} {a7 b7 : WaveRnn.Mat 8192 1} {a8 b8 : WaveRnn.Mat 512 113} {a9 b9 : WaveRnn.Vec1 512} {a10 b10 : WaveRnn.Mat 1536 512} {a11 b11 : WaveRnn.Mat 1536 512} {a12 b12 : WaveRnn.Vec1 1536} {a13 b13 : WaveRnn.Vec1 1536} {a14 b14 : WaveRnn.Mat 1536 544} {a15 b15 : WaveRnn.Mat 1536 512} {a16 b16 : WaveRnn.Vec1 1536} {a17 b17 : WaveRnn.Vec1 1536} {a18 b18 : WaveRnn.Mat 512 544} {a19 b19 : WaveRnn.Vec1 512} {a20 b20 : WaveRnn.Mat 512 544} {a21 b21 : WaveRnn.Vec1 512} {a22 b22 : WaveRnn.Mat 512 512} {a23 b23 : WaveRnn.Vec1 512}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) :
    WaveRnn.outLogits a0 a1 a2 a3 a4 a5 a6 a7 a8 a9 a10 a11 a12 a13 a14 a15 a16 a17 a18 a19 a20 a21 a22 a23 = WaveRnn.outLogits b0 b1 b2 b3 b4 b5 b6 b7 b8 b9 b10 b11 b12 b13 b14 b15 b16 b17 b18 b19 b20 b21 b22 b23
    ∧ WaveRnn.outH1n a0 a1 a2 a3 a4 a5 a6 a7 a8 a9 a10 a11 a12 a13 a14 a15 a16 a17 a18 a19 a20 a21 a22 a23 = WaveRnn.outH1n b0 b1 b2 b3 b4 b5 b6 b7 b8 b9 b10 b11 b12 b13 b14 b15 b16 b17 b18 b19 b20 b21 b22 b23
    ∧ WaveRnn.outH2n a0 a1 a2 a3 a4 a5 a6 a7 a8 a9 a10 a11 a12 a13 a14 a15 a16 a17 a18 a19 a20 a21 a22 a23 = WaveRnn.outH2n b0 b1 b2 b3 b4 b5 b6 b7 b8 b9 b10 b11 b12 b13 b14 b15 b16 b17 b18 b19 b20 b21 b22 b23 := by
  subst_vars
  exact ⟨rfl, rfl, rfl⟩

section reference
variable (m' : (ℓ : Loc Cert.ReferenceIdeal.nD Cert.ReferenceIdeal.τ Cert.ReferenceIdeal.sig) → Buf (Elt Ideal) ℓ) (c : Dev Cert.ReferenceIdeal.nD)

/-- The reference's logits are the specification's array of its arguments. -/
theorem ref_logits : Cert.ReferenceIdeal.Value.res_main_v103 m' c = WaveRnn.outLogits (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) :=
  (Cert.ReferenceIdeal.Read.val_main_v103_eq m' c).trans (Cert.ReferenceIdeal.RefValue.logits_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)))

/-- Its first new state likewise. -/
theorem ref_h1n : Cert.ReferenceIdeal.Value.res_main_v43 m' c = WaveRnn.outH1n (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) :=
  (Cert.ReferenceIdeal.Read.val_main_v43_eq m' c).trans (Cert.ReferenceIdeal.RefValue.h1n_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)))

/-- And its second new state. -/
theorem ref_h2n : Cert.ReferenceIdeal.Value.res_main_v83 m' c = WaveRnn.outH2n (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) :=
  (Cert.ReferenceIdeal.Read.val_main_v83_eq m' c).trans (Cert.ReferenceIdeal.RefValue.h2n_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)))

end reference

/-- From memories that agree on the twenty-four arguments both programs end with the specification's three arrays of
    those arguments. -/
theorem algebraic : Cert.algebraic_KernelIdeal_ReferenceIdeal := by
  intro m ρ m' ρ' _ hagree
  refine ⟨_, _, _, Cert.KernelIdeal.ArrValue.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20, h21, h22, h23⟩ := hagree c
  obtain ⟨e0, e1, e2⟩ := outs_congr h0 h1 h2 h3 h4 h5 h6 h7 h8 h9 h10 h11 h12 h13 h14 h15 h16 h17 h18 h19 h20 h21 h22 h23
  exact ⟨(h c).1.trans ((ref_logits m' c).trans e0), (h c).2.1.trans ((ref_h1n m' c).trans e1), (h c).2.2.1.trans ((ref_h2n m' c).trans e2), (h c).2.2.2⟩

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
